-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S2048x1024 : Shape := ⟨2, ![2048, 1024]⟩
abbrev S4096x512 : Shape := ⟨2, ![4096, 512]⟩
abbrev S_ : Shape := ⟨0, ![]⟩
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x512, .f32⟩
  | _, _ => ⟨S2048x1024, .f32⟩

abbrev bufScoped : (cs : CoreSpace) → Fin (nBuf (.core cs)) → Bool
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v18 : BitVec 32 := Scalar.muli v2 c2048_i32
  let c0_i32_12 : BitVec 32 := 0#32
  ![v18.toNat, 0]
def k0_off2 (d0 : Dev nD) : Fin 2 → Nat :=
  let c0_i32_13 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  ![0, v17.toNat]
def k0_dev2 (d0 : Dev nD) : Nat :=
  let c0_i32_9 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8 : BitVec 32 := 8#32
  let v19 : BitVec 32 := Scalar.muli v9 c8_i32_8
  let v20 : BitVec 32 := Scalar.addi c0_i32_9 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_10 : BitVec 32 := 4#32
  let v21 : BitVec 32 := Scalar.muli v5 c4_i32_10
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v23 : BitVec 32 := Scalar.muli v8 c1_i32_11
  let v24 : BitVec 32 := Scalar.addi v22 v23
  v24.toNat
def k0_off3 (d0 : Dev nD) : Fin 2 → Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_14 : BitVec 32 := 512#32
  let v27 : BitVec 32 := Scalar.muli v2 c512_i32_14
  ![0, v27.toNat]

class Facts₀ : Prop where
  hamt_1 : (1#32 : BitVec 32).msb = false
  hcc0_scratch0 : 0 + S_.numel ≤ 3
  hcc0_scratch1 : 1 + S_.numel ≤ 3
  hcc0_scratch2 : 2 + S_.numel ≤ 3
  k0_dev1_lt : ∀ d0 : Dev nD, (k0_dev1 d0) < nD
  k0_off1_inb : ∀ d0 : Dev nD, ∀ a, (k0_off1 d0) a + S2048x512.size a ≤ S4096x512.size a
  k0_off2_inb : ∀ d0 : Dev nD, ∀ a, (k0_off2 d0) a + S2048x512.size a ≤ S2048x1024.size a
  k0_dev2_lt : ∀ d0 : Dev nD, (k0_dev2 d0) < nD
  k0_off3_inb : ∀ d0 : Dev nD, ∀ a, (k0_off3 d0) a + S2048x512.size a ≤ S2048x1024.size a

variable [Facts₀]

abbrev cc0_scratch0 : DmaSems sig S_ := SemArray.consecutive 0 S_ hcc0_scratch0
abbrev cc0_scratch1 : DmaSems sig S_ := SemArray.consecutive 1 S_ hcc0_scratch1
abbrev cc0_scratch2 : DmaSems sig S_ := SemArray.consecutive 2 S_ hcc0_scratch2

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelSpec.lean ====
/-
  The all-to-all on a mesh of 2 × 2 × 4 devices, device `c` at mesh coordinates (c / 8, c / 4 % 2, c % 4): the
  vocabulary shared by the protocol, the body, the launch and the value.

  Each device holds a block `X c` of 2048 rows and 1024 columns and ends with a result of 4096 rows and 512
  columns. Writing `a = c / 8` for the device's first coordinate and `peer c` for the device whose first
  coordinate is the other one (same second and third), the kernel on `c`
    * copies its own columns [512 a, 512 a + 512) of `X c` into rows [2048 a, 2048 a + 2048) of its own result, and
    * sends its columns [512 (1 - a), 512 (1 - a) + 512) into the same rows [2048 a, 2048 a + 2048) of `peer c`'s
      result;
  so the result of `c` ends as `outF c`: its first write at rows of `c`, then the write `peer c` makes at rows of
  `peer c`, both laid over what the result array held at launch (every element is in fact overwritten, which only
  the value proof needs).
-/
import proofs.«900633_g7700000000000634_dist_a2a_v7x_xyz2x2x4_x_m2048_n512_f32_1_alg».proof.Proof.Gen.Kernel
import proofs.«900633_g7700000000000634_dist_a2a_v7x_xyz2x2x4_x_m2048_n512_f32_1_alg».proof.Proof.Gen.Kernel.Skeleton
import proofs.«900633_g7700000000000634_dist_a2a_v7x_xyz2x2x4_x_m2048_n512_f32_1_alg».proof.Proof.Gen.Kernel.Launch
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.Sem

variable {F : FTy → Type} [FloatOps F]

/-! ## The partner device -/

/-- The device with the other first mesh coordinate and the same second and third. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- Both `device_id` chains of the kernel (the signal's and the transfer's) name the partner. -/
theorem dev1_eq (c : Dev nD) : (⟨k0_dev1 c, Facts₀.k0_dev1_lt c⟩ : Dev nD) = peer c :=
  Fin.ext ((k0_dev1_eq c).trans (by revert c; decide))
theorem dev2_eq (c : Dev nD) : (⟨k0_dev2 c, Facts₀.k0_dev2_lt c⟩ : Dev nD) = peer c :=
  Fin.ext ((k0_dev2_eq c).trans (by revert c; decide))

/-! ## The memrefs -/

/-- The argument block and the result array, whole. -/
abbrev xW : Memref sig .tc .hbm S2048x1024 .f32 := Memref.whole main_arg0
abbrev oW : Memref sig .tc .hbm S4096x512 .f32 := Memref.whole main_v1

/-- Rows [2048 (d / 8), +2048) of a result array: where device `d` writes, in its own result and in its partner's. -/
abbrev dstM (d : Dev nD) : Memref sig .tc .hbm S2048x512 .f32 :=
  oW.slice (Rect.unit (s := S4096x512) (k0_off1 d) S2048x512.size (Facts₀.k0_off1_inb d)) (fun _ => rfl)
/-- Columns [512 (1 - d / 8), +512) of device `d`'s block: what it sends to its partner. -/
abbrev srcRM (d : Dev nD) : Memref sig .tc .hbm S2048x512 .f32 :=
  xW.slice (Rect.unit (s := S2048x1024) (k0_off2 d) S2048x512.size (Facts₀.k0_off2_inb d)) (fun _ => rfl)
/-- Columns [512 (d / 8), +512) of device `d`'s block: what it keeps. -/
abbrev srcLM (d : Dev nD) : Memref sig .tc .hbm S2048x512 .f32 :=
  xW.slice (Rect.unit (s := S2048x1024) (k0_off3 d) S2048x512.size (Facts₀.k0_off3_inb d)) (fun _ => rfl)

/-! ## Contents -/

variable (m : (ℓ : Loc nD τ sig) → Buf (Elt F) ℓ)

/-- Device `c`'s block of the argument, as launched. -/
def X (c : Dev nD) : Buf (Elt F) ((c : Thread nD τ).loc main_arg0) := m ((c : Thread nD τ).loc main_arg0)
/-- Device `c`'s result array, as launched. -/
def Y0 (c : Dev nD) : Buf (Elt F) ((c : Thread nD τ).loc main_v1) := m ((c : Thread nD τ).loc main_v1)

/-- The result array of `c` after its own copy. -/
def wA (c : Dev nD) : Buf (Elt F) ((c : Thread nD τ).loc main_v1) :=
  (dstM c).view.write (Elt F) (Y0 m c) ((srcLM c).view.read (Elt F) (X m c)) Finset.univ

/-- The result array of `c` at the end: its own copy, then its partner's transfer. -/
def outF (c : Dev nD) : Buf (Elt F) ((c : Thread nD τ).loc main_v1) :=
  (dstM (peer c)).view.write (Elt F) (wA m c) ((srcRM (peer c)).view.read (Elt F) (X m (peer c))) Finset.univ

end Cert.KernelProof

end
-- ==== Proof.KernelProto.lean ====
/-
  The protocol of the all-to-all, under the rounds discipline: one round, one duty per cell.

  Every device `c` has four cells. Its BARRIER cell is paid one unit by its partner's entry signal, and the
  signal hands over the rows of the partner's result array that `c` is about to write, with the fact that the
  partner's receive cell stands at its first round. Its SEND cell is paid by its own transfer once the source
  columns are read, and gives those columns back. Its RECEIVE cell is paid by the partner's transfer once it has
  landed, and gives the rows the partner wrote, holding the final contents. Its LOCAL cell is paid by its own copy
  and gives back the copied rows and their source columns.

  At launch a device owes its partner one unit on the barrier cell and one transfer's credit on the receive cell.
  Levels: barrier cells below receive cells, so a device may wait on its barrier while it still owes the transfer.
-/
import proofs.«900633_g7700000000000634_dist_a2a_v7x_xyz2x2x4_x_m2048_n512_f32_1_alg».proof.Proof.KernelSpec

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (one duty per round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

abbrev barS : Sem sig := (SemArray.scalar (sig.barrier 0 rfl) : Sems sig S_).sem
abbrev sendS : DmaSems sig S_ := cc0_scratch0
abbrev recvS : DmaSems sig S_ := cc0_scratch1
abbrev locS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev locCell (c : Dev nD) : GSem nD τ sig := ((c : Thread nD τ), .dma locS.sem)

/-- The kernel's own (scoped) semaphores: send, receive, local; -/
abbrev osem : Fin 3 → SemLoc sig := fun | 0 => .dma sendS.sem | 1 => .dma recvS.sem | 2 => .dma locS.sem
/-- all four of the protocol's: barrier, send, receive, local. -/
abbrev csem : Fin 4 → SemLoc sig := fun | 0 => .reg barS | 1 => .dma sendS.sem | 2 => .dma recvS.sem | 3 => .dma locS.sem
abbrev kcell (ck : Dev nD × Fin 4) : GSem nD τ sig := ((ck.1 : Thread nD τ), csem ck.2)

/-- What one transfer of 2048 × 512 words credits a DMA cell. -/
def N : ℕ := (dstM (0 : Dev nD)).view.dmaCredit
theorem N_pos : 0 < N := View.dmaCredit_pos _ (by decide)

/-! ## The assertions the cells carry -/

/-- The rows of device `d`'s result array that device `e` writes, at contents `f`. -/
abbrev dstPts (d e : Dev nD) (f : Buf (Elt F) ((d : Thread nD τ).loc main_v1)) : sProp 𝕄 :=
  ((d : Thread nD τ).loc main_v1) ↦[(dstM e).view.set]{fullShare} f
/-- The columns of its block that device `d` sends, and those it keeps. -/
abbrev srcRPts (d : Dev nD) : sProp 𝕄 :=
  ((d : Thread nD τ).loc main_arg0) ↦[(srcRM d).view.set]{fullShare} X m d
abbrev srcLPts (d : Dev nD) : sProp 𝕄 :=
  ((d : Thread nD τ).loc main_arg0) ↦[(srcLM d).view.set]{fullShare} X m d

/-- What the entry signal of `e` hands `d`: the rows of `e`'s result that `d` writes, and that `e`'s receive cell stands at its
    first round. -/
def barPay (d e : Dev nD) : sProp 𝕄 := iprop((∃ f, dstPts e d f) ∗ reached ER (recvCell e) 0)
/-- What the transfer of `e` hands `d` once landed: the rows of `d`'s result that `e` wrote, at the final contents. -/
def recvPay (d e : Dev nD) : sProp 𝕄 := dstPts d e (outF m d)
def sendPay (d : Dev nD) : sProp 𝕄 := srcRPts m d
def locPay (d : Dev nD) : sProp 𝕄 := iprop(dstPts d d (wA m d) ∗ srcLPts m d)

abbrev IsCell (g : GSem nD τ sig) : Prop :=
  g.1.2 = .tc ∧ (g.2 = .reg barS ∨ g.2 = .dma sendS.sem ∨ g.2 = .dma recvS.sem ∨ g.2 = .dma locS.sem)

/-- One round, round 0; every cell one duty: the barrier's of one unit, the others' of a transfer's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1 (peer g.1.1)
    else if g.2 = .dma recvS.sem then recvPay m g.1.1 (peer g.1.1)
    else if g.2 = .dma sendS.sem then sendPay m g.1.1
    else if g.2 = .dma locS.sem then locPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 (peer g.1.1)
    else if g.2 = .dma recvS.sem then recvPay m g.1.1 (peer g.1.1)
    else if g.2 = .dma sendS.sem then sendPay m g.1.1
    else if g.2 = .dma locS.sem then locPay m g.1.1 else iprop(emp))
  unfold barPay recvPay sendPay locPay dstPts srcRPts srcLPts
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem loc_ne_bar : (SemLoc.dma locS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem loc_ne_recv : (SemLoc.dma locS.sem : SemLoc sig) ≠ .dma recvS.sem := by decide
theorem loc_ne_send : (SemLoc.dma locS.sem : SemLoc sig) ≠ .dma sendS.sem := by decide

omit [FloatOps F] in
theorem duties_bar : (sched (F := F) m).duties (barCell c) 0 = {()} := by dsimp only [sched]; exact if_pos ⟨rfl, rfl, .inl rfl⟩
omit [FloatOps F] in
theorem duties_send : (sched (F := F) m).duties (sendCell c) 0 = {()} := by dsimp only [sched]; exact if_pos ⟨rfl, rfl, .inr (.inl rfl)⟩
omit [FloatOps F] in
theorem duties_recv : (sched (F := F) m).duties (recvCell c) 0 = {()} := by dsimp only [sched]; exact if_pos ⟨rfl, rfl, .inr (.inr (.inl rfl))⟩
omit [FloatOps F] in
theorem duties_loc : (sched (F := F) m).duties (locCell c) 0 = {()} := by dsimp only [sched]; exact if_pos ⟨rfl, rfl, .inr (.inr (.inr rfl))⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar
omit [FloatOps F] in
theorem amount_loc (d : Unit) : (sched (F := F) m).amount (locCell c) 0 d = N := by dsimp only [sched]; exact if_neg loc_ne_bar

omit [FloatOps F] in
theorem expect_bar : (sched (F := F) m).expect (barCell c) 0 = 1 := by
  rw [Schedule.expect, Schedule.amountOf, duties_bar, Finset.sum_singleton, amount_bar]
omit [FloatOps F] in
theorem expect_send : (sched (F := F) m).expect (sendCell c) 0 = N := by
  rw [Schedule.expect, Schedule.amountOf, duties_send, Finset.sum_singleton, amount_send]
omit [FloatOps F] in
theorem expect_recv : (sched (F := F) m).expect (recvCell c) 0 = N := by
  rw [Schedule.expect, Schedule.amountOf, duties_recv, Finset.sum_singleton, amount_recv]
omit [FloatOps F] in
theorem expect_loc : (sched (F := F) m).expect (locCell c) 0 = N := by
  rw [Schedule.expect, Schedule.amountOf, duties_loc, Finset.sum_singleton, amount_loc]

omit [FloatOps F] in
theorem payload_bar (d : Unit) : (sched (F := F) m).payload (barCell c) 0 d = barPay c (peer c) := by dsimp only [sched]; rw [if_pos rfl]
omit [FloatOps F] in
theorem payload_recv (d : Unit) : (sched (F := F) m).payload (recvCell c) 0 d = recvPay m c (peer c) := by
  dsimp only [sched]; rw [if_neg recv_ne_bar, if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_loc (d : Unit) : (sched (F := F) m).payload (locCell c) 0 d = locPay m c := by
  dsimp only [sched]; rw [if_neg loc_ne_bar, if_neg loc_ne_recv, if_neg loc_ne_send, if_pos rfl]

omit [FloatOps F] in
theorem rest_bar : bigSep ((sched (F := F) m).duties (barCell c) 0 \ ∅) (fun d => (sched (F := F) m).payload (barCell c) 0 d) = barPay c (peer c) := by
  rw [Finset.sdiff_empty, duties_bar, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c (peer c) := by
  rw [Finset.sdiff_empty, duties_recv, bigSep_singleton, payload_recv]
omit [FloatOps F] in
theorem rest_loc : bigSep ((sched (F := F) m).duties (locCell c) 0 \ ∅) (fun d => (sched (F := F) m).payload (locCell c) 0 d) = locPay m c := by
  rw [Finset.sdiff_empty, duties_loc, bigSep_singleton, payload_loc]

end Sched

/-! ## What each device owes at launch; the levels -/

/-- Device `c` owes its partner's receive cell one transfer's credit and its partner's barrier cell one unit (the
    signal, made first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelProof

end
-- ==== Proof.KernelGeom.lean ====
/-
  The all-to-all on a mesh of 2 × 2 × 4 devices: the geometry of the slices.

  The rows a device writes and the rows its partner writes share no element of a result array; the columns a device
  keeps and the columns it sends share no element of its block. Hence the final result array of a device is read off
  piecewise: on its own rows it is what its own copy left, on its partner's rows it is what the partner's transfer
  wrote (whatever that was laid over), and off both it is what the array held at launch.
-/
import proofs.«900633_g7700000000000634_dist_a2a_v7x_xyz2x2x4_x_m2048_n512_f32_1_alg».proof.Proof.KernelSpec
import Idealize.ShloMosaic.Signature.View
import Idealize.ShloMosaic.Signature.Memref
import Idealize.ShloMosaic.Shape

noncomputable section

namespace Cert.KernelProof

open Cert.Kernel Cert.Kernel.Gen

open Idealize.ShloMosaic
open Idealize.ShloMosaic.TcCoe
open Idealize.SL Idealize.SL.Sem

variable {F : FTy → Type} [FloatOps F]

/-! ## The element sets of the slices -/

/-- The elements under a device's destination rows are the rectangle's. -/
theorem dstM_set (d : Dev nD) :
    (dstM d).view.set
      = (Rect.unit (s := S4096x512) (k0_off1 d) S2048x512.size (Facts₀.k0_off1_inb d)).set :=
  View.set_slice_whole main_v1 _

/-- The elements under the columns a device sends are the rectangle's. -/
theorem srcRM_set (d : Dev nD) :
    (srcRM d).view.set
      = (Rect.unit (s := S2048x1024) (k0_off2 d) S2048x512.size (Facts₀.k0_off2_inb d)).set :=
  View.set_slice_whole main_arg0 _

/-- The elements under the columns a device keeps are the rectangle's. -/
theorem srcLM_set (d : Dev nD) :
    (srcLM d).view.set
      = (Rect.unit (s := S2048x1024) (k0_off3 d) S2048x512.size (Facts₀.k0_off3_inb d)).set :=
  View.set_slice_whole main_arg0 _

/-! ## Separation -/

/-- Rows [2048 a, 2048 a + 2048) and rows [2048 (1 - a), 2048 (1 - a) + 2048) are apart, a the first coordinate. -/
theorem off1_sep (c : Dev nD) :
    k0_off1 c 0 + S2048x512.size 0 ≤ k0_off1 (peer c) 0
      ∨ k0_off1 (peer c) 0 + S2048x512.size 0 ≤ k0_off1 c 0 := by
  rw [k0_off1_eq, k0_off1_eq]
  revert c; decide

/-- Columns [512 (1 - a), 512 (1 - a) + 512) and columns [512 a, 512 a + 512) are apart. -/
theorem off23_sep (c : Dev nD) :
    k0_off2 c 1 + S2048x512.size 1 ≤ k0_off3 c 1
      ∨ k0_off3 c 1 + S2048x512.size 1 ≤ k0_off2 c 1 := by
  rw [k0_off2_eq, k0_off3_eq]
  revert c; decide

/-- A device's destination rows and its partner's share no element. -/
theorem dst_disjoint (c : Dev nD) : Disjoint (dstM c).view.set (dstM (peer c)).view.set := by
  rw [dstM_set, dstM_set]
  exact Rect.unit_disjoint 0 (off1_sep c)

/-- The columns a device sends and the columns it keeps share no element. -/
theorem src_disjoint (c : Dev nD) : Disjoint (srcRM c).view.set (srcLM c).view.set := by
  rw [srcRM_set, srcLM_set]
  exact Rect.unit_disjoint 1 (off23_sep c)

theorem own_sub (c : Dev nD) : (dstM c).view.set ⊆ Finset.univ \ (dstM (peer c)).view.set :=
  Finset.subset_sdiff.mpr ⟨Finset.subset_univ _, dst_disjoint c⟩

theorem srcL_sub (c : Dev nD) : (srcLM c).view.set ⊆ Finset.univ \ (srcRM c).view.set :=
  Finset.subset_sdiff.mpr ⟨Finset.subset_univ _, (src_disjoint c).symm⟩

/-! ## The result array, piecewise -/

variable (m : (ℓ : Loc nD τ sig) → Buf (Elt F) ℓ)

/-- On a device's own rows the partner's transfer changes nothing. -/
theorem outF_on_own (c : Dev nD) : ∀ i ∈ (dstM c).view.set, wA m c i = outF m c i := fun i hi =>
  (View.write_of_not_mem (v := (dstM (peer c)).view) (wA m c) _ Finset.univ
    (i := i) (Finset.disjoint_left.mp (dst_disjoint c) hi)).symm

/-- On the partner's rows the result is what the transfer wrote, whatever it was laid over. -/
theorem outF_on_peer (c : Dev nD) (fd : Buf (Elt F) ((c : Thread nD τ).loc main_v1)) :
    ∀ i ∈ (dstM (peer c)).view.set,
      (dstM (peer c)).view.write (Elt F) fd ((srcRM (peer c)).view.read (Elt F) (X m (peer c))) Finset.univ i
        = outF m c i := fun i hi =>
  View.write_congr (v := (dstM (peer c)).view) (fun _ _ _ => rfl) (fun h => absurd hi h)

/-- Off both row blocks the result is what the array held at launch. -/
theorem outF_off (c : Dev nD) :
    ∀ i, i ∉ (dstM c).view.set → i ∉ (dstM (peer c)).view.set → Y0 m c i = outF m c i := fun i h₁ h₂ =>
  ((View.write_of_not_mem (v := (dstM (peer c)).view) (wA m c) _ Finset.univ (i := i) h₂).trans
    (View.write_of_not_mem (v := (dstM c).view) (Y0 m c) _ Finset.univ (i := i) h₁)).symm

end Cert.KernelProof

end
-- ==== Proof.KernelBody.lean ====
/-
  One device's body, from the protocol's ghost state to the final contents.

  In program order: the entry signal to the partner's barrier cell hands over the rows of this device's result that
  the partner writes; the wait on the own barrier cell brings the partner's rows that this device writes; the
  transfer sends the other half of the columns into them, paying the partner's receive cell; the local copy moves the
  own half of the columns into the own rows; the three waits bring back the copied rows, the sent columns and the
  rows the partner wrote. The block is then whole again and unchanged, and the result array, joined from the own rows,
  the partner's rows and the (empty) rest, holds `outF`.
-/
import proofs.«900633_g7700000000000634_dist_a2a_v7x_xyz2x2x4_x_m2048_n512_f32_1_alg».proof.Proof.KernelProto
import proofs.«900633_g7700000000000634_dist_a2a_v7x_xyz2x2x4_x_m2048_n512_f32_1_alg».proof.Proof.KernelGeom

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data: no window, one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own four, its
    partner's barrier cell (its signal) and its partner's receive cell (its transfer). -/
def invs (K : Dev nD × Fin 4 → ℕ) (c : Dev nD) : sProp 𝕄 :=
  iprop(cellInv ER (sched m) (K (c, 0)) (barCell c) ∗ cellInv ER (sched m) (K (c, 1)) (sendCell c)
    ∗ cellInv ER (sched m) (K (c, 2)) (recvCell c) ∗ cellInv ER (sched m) (K (c, 3)) (locCell c)
    ∗ cellInv ER (sched m) (K (peer c, 0)) (barCell (peer c)) ∗ cellInv ER (sched m) (K (peer c, 2)) (recvCell (peer c)))

instance invs_persistent (K : Dev nD × Fin 4 → ℕ) (c : Dev nD) : BI.Persistent (invs m K c) := by unfold invs; infer_instance

/-- The protocol's ghost state device `c` starts from: the invariants; its positions at round 0 of its four cells; the
    reached-marks of the cells it pays and of its own send, receive and local cells; the four duty tokens it pays
    with. -/
def ghost (K : Dev nD × Fin 4 → ℕ) (c : Dev nD) : sProp 𝕄 :=
  iprop(invs m K c
    ∗ atPos ER (barCell c) 0 ∅ 0 ∗ atPos ER (sendCell c) 0 ∅ 0 ∗ atPos ER (recvCell c) 0 ∅ 0 ∗ atPos ER (locCell c) 0 ∅ 0
    ∗ reached ER (barCell (peer c)) 0 ∗ reached ER (recvCell (peer c)) 0 ∗ reached ER (sendCell c) 0 ∗ reached ER (recvCell c) 0
    ∗ reached ER (locCell c) 0
    ∗ dutyTok ER (barCell (peer c)) 0 () ∗ dutyTok ER (recvCell (peer c)) 0 () ∗ dutyTok ER (sendCell c) 0 () ∗ dutyTok ER (locCell c) 0 ())

/-- What device `c`'s body starts from beside its arrays: the ghost state at some names, its two credit tokens (its barrier's
    unit, its receive cell's credit) and the level facts. -/
def start (c : Dev nD) : sProp 𝕄 :=
  iprop((∃ K, ghost m K c) ∗ cred (tallyAt (barCell c) () 1) ∗ cred (tallyAt (recvCell c) () N) ∗ levAts L lv)

/-- The block, whole, as launched; the result array, whole, at contents `f`. -/
def argPts (c : Dev nD) : sProp 𝕄 := ((c : Thread nD τ).loc main_arg0) ↦{fullShare} X m c
def outPts (c : Dev nD) (f : Buf (Elt F) ((c : Thread nD τ).loc main_v1)) : sProp 𝕄 := ((c : Thread nD τ).loc main_v1) ↦{fullShare} f

def Φ₀ (c : Dev nD) : sProp 𝕄 := iprop(start m c ∗ argPts m c ∗ outPts c (Y0 m c))
/-- After the point: the block unchanged, the result at its final contents, the three own cells at zero, closed. -/
def Φ₁ (c : Dev nD) : sProp 𝕄 :=
  iprop(argPts m c ∗ outPts c (outF m c) ∗ semVal (sendCell c) 0 ∗ semVal (recvCell c) 0 ∗ semVal (locCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## Points-to assertions cut along a subset of the elements, and rewritten where the contents agree -/

omit [FloatOps F] in
theorem pts_split {ℓ : Loc nD τ sig} (I S : Finset (Idx ℓ)) (h : I ⊆ S) (q : PosShare TreeShare) (f : Buf (Elt F) ℓ) :
    (ℓ ↦[S]{q} f : sProp 𝕄) ⊣⊢ iprop((ℓ ↦[I]{q} f) ∗ (ℓ ↦[S \ I]{q} f)) := BI.Region.is_split_subset h

omit [FloatOps F] in
theorem pts_congr {ℓ : Loc nD τ sig} (I : Finset (Idx ℓ)) (q : PosShare TreeShare) (f g : Buf (Elt F) ℓ) (h : ∀ i ∈ I, f i = g i) :
    (ℓ ↦[I]{q} f : sProp 𝕄) = (ℓ ↦[I]{q} g) := BI.Region.is_congr h

/-! ## The body -/

section Body

variable (K : Dev nD × Fin 4 → ℕ)

/-- What the transfer of `c` writes on its partner's rows is the partner's final contents there, whatever it is laid over. -/
theorem outF_from_peer (c : Dev nD) (fd : Buf (Elt F) (((peer c : Dev nD) : Thread nD τ).loc main_v1)) :
    ∀ i ∈ (dstM c).view.set,
      (dstM c).view.write (Elt F) fd ((srcRM c).view.read (Elt F) (X m c)) Finset.univ i = outF m (peer c) i := by
  have key : ∀ e : Dev nD, e = peer (peer c) → ∀ i ∈ (dstM e).view.set,
      (dstM e).view.write (Elt F) fd ((srcRM e).view.read (Elt F) (X m e)) Finset.univ i = outF m (peer c) i := by
    rintro e rfl; exact outF_on_peer m (peer c) fd
  exact key c (peer_peer c).symm

/-- The transfer at the protocol's cells, addressed to `n = peer c` (substituted, not rewritten). -/
theorem wp_send_peer (c n : Dev nD) (hn : n = peer c)
    {hsc : (dstM c : Memref sig (Dev.tc n : Thread nD τ).2.kind .hbm S2048x512 .f32).view.ref.isScScratch = false}
    {hsrc : (srcRM c : Memref sig .tc .hbm S2048x512 .f32).view.WordExact} {hdst : (dstM c : Memref sig .tc .hbm S2048x512 .f32).view.WordExact}
    {hsem : DmaTarget.Typed .hbm (.dma recvS.sem) (.remote (Dev.tc n : Thread nD τ) (dstM c : Memref sig .tc .hbm S2048x512 .f32) (.dma sendS.sem) hsc)}
    {α : Type} {Q : α → sProp 𝕄} {k : PUnit → Prog (TpuEff nD τ sig (Elt F) Λ₀ .tc) α}
    (fn : Buf (Elt F) (((peer c : Dev nD) : Thread nD τ).loc main_v1)) (W : Waits sig Unit) :
    iprop(cellInv ER (sched m) (K (c, 1)) (sendCell c) ∗ cellInv ER (sched m) (K (peer c, 2)) (recvCell (peer c))
        ∗ srcRPts m c ∗ dstPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcRM c) (.remote (Dev.tc n : Thread nD τ) (dstM c) (.dma sendS.sem) hsc) (.dma recvS.sem) hsrc hdst hsem) k) Q) := by
  subst hn
  unfold srcRPts dstPts
  exact Rounds.wp_send_pointsTo 𝒱₀ ER (sched m) (c : Thread nD τ) none (c' := (peer c : Thread nD τ)) (sp' := .hbm) (src := srcRM c) (dst := dstM c) (q := fullShare) (κ₁ := K (c, 1)) (κ₂ := K (peer c, 2))
    (r₁ := 0) (r₂ := 0) (d₁ := ()) (d₂ := ()) (fs := X m c) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by
      rw [payload_recv, congrArg (recvPay m (peer c)) (peer_peer c)]
      unfold recvPay dstPts
      exact Entails.of_eq (pts_congr (F := F) (ℓ := ((peer c : Dev nD) : Thread nD τ).loc main_v1) (dstM c).view.set fullShare _ (outF m (peer c)) (outF_from_peer m c fn)))

/-- The local copy at the protocol's local cell. -/
theorem wp_copy_own (c : Dev nD)
    {hsrc : (srcLM c : Memref sig .tc .hbm S2048x512 .f32).view.WordExact} {hdst : (dstM c : Memref sig .tc .hbm S2048x512 .f32).view.WordExact}
    {hsem : DmaTarget.Typed .hbm (.dma locS.sem) (DmaTarget.here (dstM c) : DmaTarget nD τ sig (.tc : Proc τ) .hbm S2048x512 .f32)}
    {α : Type} {Q : α → sProp 𝕄} {k : PUnit → Prog (TpuEff nD τ sig (Elt F) Λ₀ .tc) α} :
    iprop(cellInv ER (sched m) (K (c, 3)) (locCell c) ∗ srcLPts m c ∗ dstPts c c (Y0 m c)
        ∗ dutyTok ER (locCell c) 0 () ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcLM c) (.here (dstM c)) (.dma locS.sem) hsrc hdst hsem) k) Q) :=
  Rounds.wp_copy_pointsTo 𝒱₀ ER (sched m) (c : Thread nD τ) none (src := srcLM c) (dst := dstM c) (κ := K (c, 3)) (r := 0) (d := ()) (q := fullShare)
    (fs := X m c) (fd := Y0 m c)
    (by rw [duties_loc]; exact Finset.mem_singleton_self _) () N rfl (amount_loc m c ())
    (by rw [payload_loc]; unfold locPay wA; exact BI.Entails.refl _)

def bodyPre (c : Dev nD) : sProp 𝕄 :=
  iprop((ghost m K c ∗ cred (tallyAt (barCell c) () 1) ∗ cred (tallyAt (recvCell c) () N) ∗ levAts L lv ∗ argPts m c ∗ outPts c (Y0 m c))
    ∗ (dats m 0 c).owesAt () t₀.castSucc)

def bodyPost (c : Dev nD) : sProp 𝕄 := iprop(Φ₁ m c ∗ (dats m 0 c).owesAt () t₀.succ)

set_option maxHeartbeats 1600000 in
/-- The body, from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIloc, #HIbarP, #HIrcvP⟩, HatB, HatS, HatV, HatL, #HrBP, #HrVP, #HrS, #HrV, #HrL, HtBP, HtVP, HtS, HtL⟩,
    HcB, HcV, #Hlev, Harg, Hout⟩, Ho⟩, Hk⟩
  unfold Dat.owesAt Pipeline.owesWithin
  icases Ho with ⟨%W, %hW, HO⟩
  rw [show (dats m 0 c).owed t₀.castSucc = O₀ c from rfl]
  simp only [dev1_eq c, dev2_eq c]
  -- the block: the columns sent, the columns kept, the rest; the result: the partner's rows, the own rows, the rest
  unfold argPts outPts
  ihave Ha1 := ((pts_split (F := F) (ℓ := (c : Thread nD τ).loc main_arg0) (srcRM c).view.set Finset.univ (Finset.subset_univ _) fullShare (X m c)).1) $$ Harg
  icases Ha1 with ⟨HsR, Ha1⟩
  ihave Ha2 := ((pts_split (F := F) (ℓ := (c : Thread nD τ).loc main_arg0) (srcLM c).view.set (Finset.univ \ (srcRM c).view.set) (srcL_sub c) fullShare (X m c)).1) $$ Ha1
  icases Ha2 with ⟨HsL, HaRest⟩
  ihave Hb1 := ((pts_split (F := F) (ℓ := (c : Thread nD τ).loc main_v1) (dstM (peer c)).view.set Finset.univ (Finset.subset_univ _) fullShare (Y0 m c)).1) $$ Hout
  icases Hb1 with ⟨HdP, Hb1⟩
  ihave Hb2 := ((pts_split (F := F) (ℓ := (c : Thread nD τ).loc main_v1) (dstM c).view.set (Finset.univ \ (dstM (peer c)).view.set) (own_sub c) fullShare (Y0 m c)).1) $$ Hb1
  icases Hb2 with ⟨HdO, HbRest⟩
  -- the SIGNAL to the partner's barrier: the rows of this device's result that the partner writes go with it
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP HdP]
  · isplitr; · iexact HIbarP
    isplitl [HO]; · iexact HO
    isplitl [HtBP]; · iexact HtBP
    isplitl [HdP]
    · rw [payload_bar, congrArg (barPay (F := F) (peer c)) (peer_peer c)]; unfold barPay dstPts
      isplitl [HdP]; · iexists (Y0 m c); iexact HdP
      iexact HrV
    · iexact HrBP
  iintro HO
  -- the WAIT on the own barrier, owing the partner's receive credit: the partner's rows that this device writes come with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HdN⟩, #HrVP'⟩
  -- the TRANSFER to the partner
  iapply (wp_send_peer m K c _ (dev2_eq c) fn (insert (SemLoc.reg barS, ()) W)) $$ [HsR HdN HO HtS HtVP]
  · isplitr; · iexact HIsnd
    isplitr; · iexact HIrcvP
    isplitl [HsR]; · iexact HsR
    isplitl [HdN]; · iexact HdN
    isplitl [HO]; · iexact HO
    isplitl [HtS]; · iexact HtS
    isplitr; · iexact HrS
    isplitl [HtVP]; · iexact HtVP
    iexact HrVP
  iintro ⟨HcS, HO⟩
  -- the LOCAL copy of the columns kept into the own rows
  iapply (wp_copy_own m K c) $$ [HsL HdO HtL]
  · isplitr; · iexact HIloc
    isplitl [HsL]; · iexact HsL
    isplitl [HdO]; · iexact HdO
    isplitl [HtL]; · iexact HtL
    iexact HrL
  iintro HcL
  -- the wait on the LOCAL cell: the own rows, copied, and the columns kept
  iapply (Rounds.wp_wait_rest_token 𝒱₀ ER (sched m) (c : Thread nD τ) none (κ := K (c, 3))
      (wpE_waitDma2_eq 𝒱₀ (c : Thread nD τ) none Set.univ) (Set.mem_univ _) () (O := 0) (W := insert (SemLoc.reg barS, ()) W) (R := 0) (m := 0) (T := ∅)
      (by rw [Nat.zero_add, expect_loc]; rfl)) $$ [HcL HO HatL]
  · isplitr; · iexact HIloc
    isplitl [HcL]; · iexact HcL
    isplitl [HO]; · iexact HO
    isplitr; · rw [MayWait_zero]; iempintro
    iexact HatL
  iintro ⟨HO, HatL, -, Hpay⟩
  ihave HL := (Entails.of_eq (rest_loc m c)) $$ Hpay
  unfold locPay
  icases HL with ⟨HdO, HsL⟩
  -- the wait on the SEND cell: the columns sent
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma locS.sem, ()) (insert (SemLoc.reg barS, ()) W)) (R := 0) (m := 0) (T := ∅)
      (by rw [Nat.zero_add, expect_send]; rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HsR := (Entails.of_eq (rest_send m c)) $$ Hpay
  -- the wait on the RECEIVE cell: the rows the partner wrote, at the final contents
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sendS.sem, ()) (insert (SemLoc.dma locS.sem, ()) (insert (SemLoc.reg barS, ()) W))) (R := 0) (m := 0) (T := ∅)
      (by rw [Nat.zero_add, expect_recv]; rfl)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HdP := (Entails.of_eq (rest_recv m c)) $$ Hpay
  -- the three own cells close: their counters at zero are the core's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  imod (Rounds.cell_close ER (sched m) (Set.mem_univ (K (c, 3))) (fun h => h) (R := 0 + 1) (duties_later m (locCell c))) $$ [HatL] with HzL
  · isplitr; · iexact HIloc
    iexact HatL
  rw [wp_ret]; imodintro
  iapply Hk
  -- the block whole again
  unfold sendPay srcRPts srcLPts
  ihave Ha1 := ((pts_split (F := F) (ℓ := (c : Thread nD τ).loc main_arg0) (srcLM c).view.set (Finset.univ \ (srcRM c).view.set) (srcL_sub c) fullShare (X m c)).2) $$ [HsL HaRest]
  · isplitl [HsL] <;> iassumption
  ihave Harg := ((pts_split (F := F) (ℓ := (c : Thread nD τ).loc main_arg0) (srcRM c).view.set Finset.univ (Finset.subset_univ _) fullShare (X m c)).2) $$ [HsR Ha1]
  · isplitl [HsR] <;> iassumption
  -- the result whole again, at `outF` on each of its three parts
  unfold recvPay dstPts
  ihave HdO := (Entails.of_eq (pts_congr (F := F) (ℓ := (c : Thread nD τ).loc main_v1) (dstM c).view.set fullShare (wA m c) (outF m c) (outF_on_own m c))) $$ HdO
  ihave HbRest := (Entails.of_eq (pts_congr (F := F) (ℓ := (c : Thread nD τ).loc main_v1) ((Finset.univ \ (dstM (peer c)).view.set) \ (dstM c).view.set) fullShare (Y0 m c) (outF m c)
      (fun i hi => outF_off m c i (Finset.mem_sdiff.mp hi).2 (Finset.mem_sdiff.mp (Finset.mem_sdiff.mp hi).1).2))) $$ HbRest
  ihave Hb1 := ((pts_split (F := F) (ℓ := (c : Thread nD τ).loc main_v1) (dstM c).view.set (Finset.univ \ (dstM (peer c)).view.set) (own_sub c) fullShare (outF m c)).2) $$ [HdO HbRest]
  · isplitl [HdO] <;> iassumption
  ihave Hout := ((pts_split (F := F) (ℓ := (c : Thread nD τ).loc main_v1) (dstM (peer c)).view.set Finset.univ (Finset.subset_univ _) fullShare (outF m c)).2) $$ [HdP Hb1]
  · isplitl [HdP] <;> iassumption
  unfold bodyPost Φ₁ argPts outPts Dat.owesAt Pipeline.owesWithin
  rw [show (dats m 0 c).owed t₀.succ = 0 from rfl]
  isplitr [HO]
  · isplitl [Harg]; · iexact Harg
    isplitl [Hout]; · iexact Hout
    isplitl [HzS]; · iexact HzS
    isplitl [HzV]; · iexact HzV
    iexact HzL
  · iexists (insert (SemLoc.dma recvS.sem, ()) (insert (SemLoc.dma sendS.sem, ()) (insert (SemLoc.dma locS.sem, ()) (insert (SemLoc.reg barS, ()) W))))
    isplitr; · ipureintro; exact fun _ _ => Or.inl trivial
    iexact HO

/-- The library's body obligation on core `c`. -/
theorem body_obligation (c : Dev nD) : BodyObligation (dats (F := F) m 0 c) (defs₀ (F := F)) 𝒱₀ () Set.univ := fun t => by
  rw [fin_N t]
  show iprop(Φ₀ m c ∗ (dats m 0 c).owesAt () t₀.castSucc ∗ emp)
    ⊢ wp frame (wpE (defs₀ (F := F)) 𝒱₀ c none) Set.univ
      (cc0_body (Memref.whole main_arg0) (Memref.isWhole_whole _) (Memref.whole main_v1) (Memref.isWhole_whole _)
        cc0_scratch0 cc0_scratch1 cc0_scratch2) (fun _ => iprop(Φ₁ m c ∗ (dats m 0 c).owesAt () t₀.succ ∗ emp))
  unfold Φ₀ start
  iintro ⟨⟨⟨⟨%K, Hg⟩, Hrest⟩, Harg, Hout⟩, Ho, -⟩
  iapply (sound_body m K c fun _ => iprop(Φ₁ m c ∗ (dats m 0 c).owesAt () t₀.succ ∗ emp))
  unfold bodyPre bodyPost
  isplitr []
  · isplitl [Hg Hrest Harg Hout]
    · isplitl [Hg]; · iexact Hg
      icases Hrest with ⟨H1, H2, H3⟩
      isplitl [H1]; · iexact H1
      isplitl [H2]; · iexact H2
      isplitl [H3]; · iexact H3
      isplitl [Harg] <;> iassumption
    iexact Ho
  · iintro ⟨H1, H2⟩
    isplitl [H1]; · iexact H1
    isplitl [H2]; · iexact H2
    iempintro

end Body

end Cert.KernelProof

end
-- ==== Proof.KernelLaunch.lean ====
/-
  The launch: every device's body lemma becomes the run of the whole mesh.

  The protocol's ghost state is minted once for all sixteen devices (four cells a device, one duty a cell); the
  cells' invariants are allocated under one update over every device's own semaphores and its barrier semaphore,
  both at zero; the duty tokens are dealt to the devices that pay them (the barrier's and the receive cell's to the
  partner); the launch credit of a device is one unit on its barrier cell and one transfer's credit on its receive
  cell, both owed by its partner. The argument block and the result array are not staged: they travel as the
  unscoped rest into the first invariant and out of the last, where they are read against the final memory.
-/
import proofs.«900633_g7700000000000634_dist_a2a_v7x_xyz2x2x4_x_m2048_n512_f32_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := w.elim0

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- Every cell's one duty token as minted. -/
abbrev tokOf (cj : Dev nD × Fin 4) : GSem nD τ sig × ℕ × Unit := (kcell cj, 0, ())
theorem tokOf_injective : Function.Injective (tokOf : Dev nD × Fin 4 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 () ∗ dutyTok ER (locCell c) 0 ())

/-- What the launch element deals device `c`. -/
def G (c : Dev nD) : sProp 𝕄 :=
  iprop((bigSep Finset.univ fun k : Fin 4 => roundState ER (sched m) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 4 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin4]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send, receive and local semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (locCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HL⟩, HB⟩
  isplitl [HB]; · iexact HB
  isplitl [HS]; · iexact HS
  isplitl [HV] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 () ∗ dutyTok ER (locCell c) 0 ())
def linear (c : Dev nD) : sProp 𝕄 :=
  iprop((atPos ER (barCell c) 0 ∅ 0 ∗ atPos ER (sendCell c) 0 ∅ 0 ∗ atPos ER (recvCell c) 0 ∅ 0 ∗ atPos ER (locCell c) 0 ∅ 0) ∗ payToks c)

omit [FloatOps F] in
theorem ghost_intro (K : Dev nD × Fin 4 → ℕ) (c : Dev nD) : iprop(records m K ∗ linear c) ⊢ G' m c := by
  unfold records linear payToks G' ghost invs
  iintro ⟨⟨#HI, #HR⟩, ⟨HaB, HaS, HaV, HaL⟩, HtBP, HtVP, HtS, HtL⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitl [HaL]; · iexact HaL
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitr; · iapply (reached_at (F := F) (c, 3)); iexact HR
  isplitl [HtBP]; · iexact HtBP
  isplitl [HtVP]; · iexact HtVP
  isplitl [HtS]; · iexact HtS
  iexact HtL

/-- Exchanging partners is a bijection of the devices. -/
def pe : Dev nD ≃ Dev nD := ⟨peer, peer, peer_peer, peer_peer⟩

omit [FloatOps F] in
/-- The tokens dealt: a barrier's token and a receive cell's token go to the partner, which pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pe (fun c : Dev nD => (dutyTok ER (barCell c) 0 () : sProp 𝕄)),
    bigSep_univ_equiv pe (fun c : Dev nD => (dutyTok ER (recvCell c) 0 () : sProp 𝕄))]
  iintro ⟨H1, H2, H3, H4⟩
  isplitl [H1]; · iexact H1
  isplitl [H3]; · iexact H3
  isplitl [H2]; · iexact H2
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

/-- What device `c` routes into the first invariant: the protocol's start and its two arrays as launched. -/
def Xc (c : Dev nD) : sProp 𝕄 := iprop(start m c ∗ argPts m c ∗ outPts c (Y0 m c))
/-- What comes out of the last: the block unchanged and the result at its final contents. -/
def Yc (c : Dev nD) : sProp 𝕄 := iprop(argPts m c ∗ outPts c (outF m c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Xc m c ∗ emp) := by
  rw [Pipeline.unscopedRestP_none, unscopedRest0_eq]
  iintro ⟨⟨Ha, Hv⟩, Hlev, Hcr, -, HG⟩
  ihave Hc := (creds (F := F) c) $$ Hcr
  icases Hc with ⟨H1, HN⟩
  imodintro
  unfold Xc start G' argPts outPts X Y0
  isplitl
  · isplitl [HG H1 HN Hlev]
    · isplitl [HG]; · iexact HG
      isplitl [H1]; · iexact H1
      isplitl [HN]; · iexact HN
      iexact Hlev
    isplitl [Ha]; · iexact Ha
    iexact Hv
  · iempintro

theorem phi0_intro (c : Dev nD) :
    iprop(Xc m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ Xc
  iintro ⟨Hs, -, -⟩
  iexact Hs

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ Yc
  iintro ⟨Ha, Hv, HzS, HzV, HzL⟩
  isplitl [Ha Hv]
  · isplitl [Ha] <;> iassumption
  isplitl [HzS HzV HzL]
  · isplitl [HzS]; · iexact HzS
    isplitl [HzV] <;> iassumption
  iempintro

theorem waits (c : Dev nD) : (levAts L lv : sProp 𝕄) ⊢ Pipeline.cellsWaits cfgs (dats m) () 0 c :=
  Pipeline.cellsWaits_intro cfgs (dats m) () 0 c fun w s t => w.elim0

/-! ### The run -/

def QC : PUnit × MemSt nD τ sig (Elt F) → Prop := fun r =>
  ∀ c : Dev nD, r.2.mem ((c : Thread nD τ).loc main_v1) = outF m c
    ∧ r.2.mem ((c : Thread nD τ).loc main_arg0) = m ((c : Thread nD τ).loc main_arg0)

set_option maxRecDepth 8000 in
/-- At the compiled mesh of sixteen devices, for any float values, from any memory with zero counters: every weakly fair
    execution of @main terminates, and every final state has each device's result array at `outF` and its block
    unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ w => w.elim0) (hpf := fun _ k => k.elim0)
    (X := Xc m) (Y := Yc m) (Z := fun _ => iprop(emp))
    (hX := start_intro m ρ) (hin := phi0_intro m) (hout := phi1_exit m)
    (QY := fun c s => s.mem ((c : Thread nD τ).loc main_v1) = outF m c ∧ s.mem ((c : Thread nD τ).loc main_arg0) = X m c)
    (hY := fun c s' => by
      unfold Yc argPts outPts
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

/-- info: 'Cert.KernelProof.run_main' depends on axioms: [propext, Classical.choice, Quot.sound] -/
#guard_msgs in #print axioms run_main

end Cert.KernelProof

end
-- ==== Proof.KernelIdealSpec.lean ====
/-
  The all-to-all on a mesh of 2 × 2 × 4 devices, device `c` at mesh coordinates (c / 8, c / 4 % 2, c % 4): the
  vocabulary shared by the protocol, the body, the launch and the value.

  Each device holds a block `X c` of 2048 rows and 1024 columns and ends with a result of 4096 rows and 512
  columns. Writing `a = c / 8` for the device's first coordinate and `peer c` for the device whose first
  coordinate is the other one (same second and third), the kernel on `c`
    * copies its own columns [512 a, 512 a + 512) of `X c` into rows [2048 a, 2048 a + 2048) of its own result, and
    * sends its columns [512 (1 - a), 512 (1 - a) + 512) into the same rows [2048 a, 2048 a + 2048) of `peer c`'s
      result;
  so the result of `c` ends as `outF c`: its first write at rows of `c`, then the write `peer c` makes at rows of
  `peer c`, both laid over what the result array held at launch (every element is in fact overwritten, which only
  the value proof needs).
-/
import proofs.«900633_g7700000000000634_dist_a2a_v7x_xyz2x2x4_x_m2048_n512_f32_1_alg».proof.Proof.Gen.KernelIdeal
import proofs.«900633_g7700000000000634_dist_a2a_v7x_xyz2x2x4_x_m2048_n512_f32_1_alg».proof.Proof.Gen.KernelIdeal.Skeleton
import proofs.«900633_g7700000000000634_dist_a2a_v7x_xyz2x2x4_x_m2048_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-! ## The partner device -/

/-- The device with the other first mesh coordinate and the same second and third. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- Both `device_id` chains of the kernel (the signal's and the transfer's) name the partner. -/
theorem dev1_eq (c : Dev nD) : (⟨k0_dev1 c, Facts₀.k0_dev1_lt c⟩ : Dev nD) = peer c :=
  Fin.ext ((k0_dev1_eq c).trans (by revert c; decide))
theorem dev2_eq (c : Dev nD) : (⟨k0_dev2 c, Facts₀.k0_dev2_lt c⟩ : Dev nD) = peer c :=
  Fin.ext ((k0_dev2_eq c).trans (by revert c; decide))

/-! ## The memrefs -/

/-- The argument block and the result array, whole. -/
abbrev xW : Memref sig .tc .hbm S2048x1024 .f32 := Memref.whole main_arg0
abbrev oW : Memref sig .tc .hbm S4096x512 .f32 := Memref.whole main_v1

/-- Rows [2048 (d / 8), +2048) of a result array: where device `d` writes, in its own result and in its partner's. -/
abbrev dstM (d : Dev nD) : Memref sig .tc .hbm S2048x512 .f32 :=
  oW.slice (Rect.unit (s := S4096x512) (k0_off1 d) S2048x512.size (Facts₀.k0_off1_inb d)) (fun _ => rfl)
/-- Columns [512 (1 - d / 8), +512) of device `d`'s block: what it sends to its partner. -/
abbrev srcRM (d : Dev nD) : Memref sig .tc .hbm S2048x512 .f32 :=
  xW.slice (Rect.unit (s := S2048x1024) (k0_off2 d) S2048x512.size (Facts₀.k0_off2_inb d)) (fun _ => rfl)
/-- Columns [512 (d / 8), +512) of device `d`'s block: what it keeps. -/
abbrev srcLM (d : Dev nD) : Memref sig .tc .hbm S2048x512 .f32 :=
  xW.slice (Rect.unit (s := S2048x1024) (k0_off3 d) S2048x512.size (Facts₀.k0_off3_inb d)) (fun _ => rfl)

/-! ## Contents -/

variable (m : (ℓ : Loc nD τ sig) → Buf (Elt F) ℓ)

/-- Device `c`'s block of the argument, as launched. -/
def X (c : Dev nD) : Buf (Elt F) ((c : Thread nD τ).loc main_arg0) := m ((c : Thread nD τ).loc main_arg0)
/-- Device `c`'s result array, as launched. -/
def Y0 (c : Dev nD) : Buf (Elt F) ((c : Thread nD τ).loc main_v1) := m ((c : Thread nD τ).loc main_v1)

/-- The result array of `c` after its own copy. -/
def wA (c : Dev nD) : Buf (Elt F) ((c : Thread nD τ).loc main_v1) :=
  (dstM c).view.write (Elt F) (Y0 m c) ((srcLM c).view.read (Elt F) (X m c)) Finset.univ

/-- The result array of `c` at the end: its own copy, then its partner's transfer. -/
def outF (c : Dev nD) : Buf (Elt F) ((c : Thread nD τ).loc main_v1) :=
  (dstM (peer c)).view.write (Elt F) (wA m c) ((srcRM (peer c)).view.read (Elt F) (X m (peer c))) Finset.univ

end Cert.KernelIdealProof

end
-- ==== Proof.KernelIdealProto.lean ====
/-
  The protocol of the all-to-all, under the rounds discipline: one round, one duty per cell.

  Every device `c` has four cells. Its BARRIER cell is paid one unit by its partner's entry signal, and the
  signal hands over the rows of the partner's result array that `c` is about to write, with the fact that the
  partner's receive cell stands at its first round. Its SEND cell is paid by its own transfer once the source
  columns are read, and gives those columns back. Its RECEIVE cell is paid by the partner's transfer once it has
  landed, and gives the rows the partner wrote, holding the final contents. Its LOCAL cell is paid by its own copy
  and gives back the copied rows and their source columns.

  At launch a device owes its partner one unit on the barrier cell and one transfer's credit on the receive cell.
  Levels: barrier cells below receive cells, so a device may wait on its barrier while it still owes the transfer.
-/
import proofs.«900633_g7700000000000634_dist_a2a_v7x_xyz2x2x4_x_m2048_n512_f32_1_alg».proof.Proof.KernelIdealSpec

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (one duty per round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

abbrev barS : Sem sig := (SemArray.scalar (sig.barrier 0 rfl) : Sems sig S_).sem
abbrev sendS : DmaSems sig S_ := cc0_scratch0
abbrev recvS : DmaSems sig S_ := cc0_scratch1
abbrev locS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev locCell (c : Dev nD) : GSem nD τ sig := ((c : Thread nD τ), .dma locS.sem)

/-- The kernel's own (scoped) semaphores: send, receive, local; -/
abbrev osem : Fin 3 → SemLoc sig := fun | 0 => .dma sendS.sem | 1 => .dma recvS.sem | 2 => .dma locS.sem
/-- all four of the protocol's: barrier, send, receive, local. -/
abbrev csem : Fin 4 → SemLoc sig := fun | 0 => .reg barS | 1 => .dma sendS.sem | 2 => .dma recvS.sem | 3 => .dma locS.sem
abbrev kcell (ck : Dev nD × Fin 4) : GSem nD τ sig := ((ck.1 : Thread nD τ), csem ck.2)

/-- What one transfer of 2048 × 512 words credits a DMA cell. -/
def N : ℕ := (dstM (0 : Dev nD)).view.dmaCredit
theorem N_pos : 0 < N := View.dmaCredit_pos _ (by decide)

/-! ## The assertions the cells carry -/

/-- The rows of device `d`'s result array that device `e` writes, at contents `f`. -/
abbrev dstPts (d e : Dev nD) (f : Buf (Elt F) ((d : Thread nD τ).loc main_v1)) : sProp 𝕄 :=
  ((d : Thread nD τ).loc main_v1) ↦[(dstM e).view.set]{fullShare} f
/-- The columns of its block that device `d` sends, and those it keeps. -/
abbrev srcRPts (d : Dev nD) : sProp 𝕄 :=
  ((d : Thread nD τ).loc main_arg0) ↦[(srcRM d).view.set]{fullShare} X m d
abbrev srcLPts (d : Dev nD) : sProp 𝕄 :=
  ((d : Thread nD τ).loc main_arg0) ↦[(srcLM d).view.set]{fullShare} X m d

/-- What the entry signal of `e` hands `d`: the rows of `e`'s result that `d` writes, and that `e`'s receive cell stands at its
    first round. -/
def barPay (d e : Dev nD) : sProp 𝕄 := iprop((∃ f, dstPts e d f) ∗ reached ER (recvCell e) 0)
/-- What the transfer of `e` hands `d` once landed: the rows of `d`'s result that `e` wrote, at the final contents. -/
def recvPay (d e : Dev nD) : sProp 𝕄 := dstPts d e (outF m d)
def sendPay (d : Dev nD) : sProp 𝕄 := srcRPts m d
def locPay (d : Dev nD) : sProp 𝕄 := iprop(dstPts d d (wA m d) ∗ srcLPts m d)

abbrev IsCell (g : GSem nD τ sig) : Prop :=
  g.1.2 = .tc ∧ (g.2 = .reg barS ∨ g.2 = .dma sendS.sem ∨ g.2 = .dma recvS.sem ∨ g.2 = .dma locS.sem)

/-- One round, round 0; every cell one duty: the barrier's of one unit, the others' of a transfer's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1 (peer g.1.1)
    else if g.2 = .dma recvS.sem then recvPay m g.1.1 (peer g.1.1)
    else if g.2 = .dma sendS.sem then sendPay m g.1.1
    else if g.2 = .dma locS.sem then locPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 (peer g.1.1)
    else if g.2 = .dma recvS.sem then recvPay m g.1.1 (peer g.1.1)
    else if g.2 = .dma sendS.sem then sendPay m g.1.1
    else if g.2 = .dma locS.sem then locPay m g.1.1 else iprop(emp))
  unfold barPay recvPay sendPay locPay dstPts srcRPts srcLPts
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem loc_ne_bar : (SemLoc.dma locS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem loc_ne_recv : (SemLoc.dma locS.sem : SemLoc sig) ≠ .dma recvS.sem := by decide
theorem loc_ne_send : (SemLoc.dma locS.sem : SemLoc sig) ≠ .dma sendS.sem := by decide

omit [FloatOps F] in
theorem duties_bar : (sched (F := F) m).duties (barCell c) 0 = {()} := by dsimp only [sched]; exact if_pos ⟨rfl, rfl, .inl rfl⟩
omit [FloatOps F] in
theorem duties_send : (sched (F := F) m).duties (sendCell c) 0 = {()} := by dsimp only [sched]; exact if_pos ⟨rfl, rfl, .inr (.inl rfl)⟩
omit [FloatOps F] in
theorem duties_recv : (sched (F := F) m).duties (recvCell c) 0 = {()} := by dsimp only [sched]; exact if_pos ⟨rfl, rfl, .inr (.inr (.inl rfl))⟩
omit [FloatOps F] in
theorem duties_loc : (sched (F := F) m).duties (locCell c) 0 = {()} := by dsimp only [sched]; exact if_pos ⟨rfl, rfl, .inr (.inr (.inr rfl))⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar
omit [FloatOps F] in
theorem amount_loc (d : Unit) : (sched (F := F) m).amount (locCell c) 0 d = N := by dsimp only [sched]; exact if_neg loc_ne_bar

omit [FloatOps F] in
theorem expect_bar : (sched (F := F) m).expect (barCell c) 0 = 1 := by
  rw [Schedule.expect, Schedule.amountOf, duties_bar, Finset.sum_singleton, amount_bar]
omit [FloatOps F] in
theorem expect_send : (sched (F := F) m).expect (sendCell c) 0 = N := by
  rw [Schedule.expect, Schedule.amountOf, duties_send, Finset.sum_singleton, amount_send]
omit [FloatOps F] in
theorem expect_recv : (sched (F := F) m).expect (recvCell c) 0 = N := by
  rw [Schedule.expect, Schedule.amountOf, duties_recv, Finset.sum_singleton, amount_recv]
omit [FloatOps F] in
theorem expect_loc : (sched (F := F) m).expect (locCell c) 0 = N := by
  rw [Schedule.expect, Schedule.amountOf, duties_loc, Finset.sum_singleton, amount_loc]

omit [FloatOps F] in
theorem payload_bar (d : Unit) : (sched (F := F) m).payload (barCell c) 0 d = barPay c (peer c) := by dsimp only [sched]; rw [if_pos rfl]
omit [FloatOps F] in
theorem payload_recv (d : Unit) : (sched (F := F) m).payload (recvCell c) 0 d = recvPay m c (peer c) := by
  dsimp only [sched]; rw [if_neg recv_ne_bar, if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_loc (d : Unit) : (sched (F := F) m).payload (locCell c) 0 d = locPay m c := by
  dsimp only [sched]; rw [if_neg loc_ne_bar, if_neg loc_ne_recv, if_neg loc_ne_send, if_pos rfl]

omit [FloatOps F] in
theorem rest_bar : bigSep ((sched (F := F) m).duties (barCell c) 0 \ ∅) (fun d => (sched (F := F) m).payload (barCell c) 0 d) = barPay c (peer c) := by
  rw [Finset.sdiff_empty, duties_bar, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c (peer c) := by
  rw [Finset.sdiff_empty, duties_recv, bigSep_singleton, payload_recv]
omit [FloatOps F] in
theorem rest_loc : bigSep ((sched (F := F) m).duties (locCell c) 0 \ ∅) (fun d => (sched (F := F) m).payload (locCell c) 0 d) = locPay m c := by
  rw [Finset.sdiff_empty, duties_loc, bigSep_singleton, payload_loc]

end Sched

/-! ## What each device owes at launch; the levels -/

/-- Device `c` owes its partner's receive cell one transfer's credit and its partner's barrier cell one unit (the
    signal, made first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdealProof

end
-- ==== Proof.KernelIdealGeom.lean ====
/-
  The all-to-all on a mesh of 2 × 2 × 4 devices: the geometry of the slices.

  The rows a device writes and the rows its partner writes share no element of a result array; the columns a device
  keeps and the columns it sends share no element of its block. Hence the final result array of a device is read off
  piecewise: on its own rows it is what its own copy left, on its partner's rows it is what the partner's transfer
  wrote (whatever that was laid over), and off both it is what the array held at launch.
-/
import proofs.«900633_g7700000000000634_dist_a2a_v7x_xyz2x2x4_x_m2048_n512_f32_1_alg».proof.Proof.KernelIdealSpec
import Idealize.ShloMosaic.Signature.View
import Idealize.ShloMosaic.Signature.Memref
import Idealize.ShloMosaic.Shape

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-! ## The element sets of the slices -/

/-- The elements under a device's destination rows are the rectangle's. -/
theorem dstM_set (d : Dev nD) :
    (dstM d).view.set
      = (Rect.unit (s := S4096x512) (k0_off1 d) S2048x512.size (Facts₀.k0_off1_inb d)).set :=
  View.set_slice_whole main_v1 _

/-- The elements under the columns a device sends are the rectangle's. -/
theorem srcRM_set (d : Dev nD) :
    (srcRM d).view.set
      = (Rect.unit (s := S2048x1024) (k0_off2 d) S2048x512.size (Facts₀.k0_off2_inb d)).set :=
  View.set_slice_whole main_arg0 _

/-- The elements under the columns a device keeps are the rectangle's. -/
theorem srcLM_set (d : Dev nD) :
    (srcLM d).view.set
      = (Rect.unit (s := S2048x1024) (k0_off3 d) S2048x512.size (Facts₀.k0_off3_inb d)).set :=
  View.set_slice_whole main_arg0 _

/-! ## Separation -/

/-- Rows [2048 a, 2048 a + 2048) and rows [2048 (1 - a), 2048 (1 - a) + 2048) are apart, a the first coordinate. -/
theorem off1_sep (c : Dev nD) :
    k0_off1 c 0 + S2048x512.size 0 ≤ k0_off1 (peer c) 0
      ∨ k0_off1 (peer c) 0 + S2048x512.size 0 ≤ k0_off1 c 0 := by
  rw [k0_off1_eq, k0_off1_eq]
  revert c; decide

/-- Columns [512 (1 - a), 512 (1 - a) + 512) and columns [512 a, 512 a + 512) are apart. -/
theorem off23_sep (c : Dev nD) :
    k0_off2 c 1 + S2048x512.size 1 ≤ k0_off3 c 1
      ∨ k0_off3 c 1 + S2048x512.size 1 ≤ k0_off2 c 1 := by
  rw [k0_off2_eq, k0_off3_eq]
  revert c; decide

/-- A device's destination rows and its partner's share no element. -/
theorem dst_disjoint (c : Dev nD) : Disjoint (dstM c).view.set (dstM (peer c)).view.set := by
  rw [dstM_set, dstM_set]
  exact Rect.unit_disjoint 0 (off1_sep c)

/-- The columns a device sends and the columns it keeps share no element. -/
theorem src_disjoint (c : Dev nD) : Disjoint (srcRM c).view.set (srcLM c).view.set := by
  rw [srcRM_set, srcLM_set]
  exact Rect.unit_disjoint 1 (off23_sep c)

theorem own_sub (c : Dev nD) : (dstM c).view.set ⊆ Finset.univ \ (dstM (peer c)).view.set :=
  Finset.subset_sdiff.mpr ⟨Finset.subset_univ _, dst_disjoint c⟩

theorem srcL_sub (c : Dev nD) : (srcLM c).view.set ⊆ Finset.univ \ (srcRM c).view.set :=
  Finset.subset_sdiff.mpr ⟨Finset.subset_univ _, (src_disjoint c).symm⟩

/-! ## The result array, piecewise -/

variable (m : (ℓ : Loc nD τ sig) → Buf (Elt F) ℓ)

/-- On a device's own rows the partner's transfer changes nothing. -/
theorem outF_on_own (c : Dev nD) : ∀ i ∈ (dstM c).view.set, wA m c i = outF m c i := fun i hi =>
  (View.write_of_not_mem (v := (dstM (peer c)).view) (wA m c) _ Finset.univ
    (i := i) (Finset.disjoint_left.mp (dst_disjoint c) hi)).symm

/-- On the partner's rows the result is what the transfer wrote, whatever it was laid over. -/
theorem outF_on_peer (c : Dev nD) (fd : Buf (Elt F) ((c : Thread nD τ).loc main_v1)) :
    ∀ i ∈ (dstM (peer c)).view.set,
      (dstM (peer c)).view.write (Elt F) fd ((srcRM (peer c)).view.read (Elt F) (X m (peer c))) Finset.univ i
        = outF m c i := fun i hi =>
  View.write_congr (v := (dstM (peer c)).view) (fun _ _ _ => rfl) (fun h => absurd hi h)

/-- Off both row blocks the result is what the array held at launch. -/
theorem outF_off (c : Dev nD) :
    ∀ i, i ∉ (dstM c).view.set → i ∉ (dstM (peer c)).view.set → Y0 m c i = outF m c i := fun i h₁ h₂ =>
  ((View.write_of_not_mem (v := (dstM (peer c)).view) (wA m c) _ Finset.univ (i := i) h₂).trans
    (View.write_of_not_mem (v := (dstM c).view) (Y0 m c) _ Finset.univ (i := i) h₁)).symm

end Cert.KernelIdealProof

end
-- ==== Proof.KernelIdealBody.lean ====
/-
  One device's body, from the protocol's ghost state to the final contents.

  In program order: the entry signal to the partner's barrier cell hands over the rows of this device's result that
  the partner writes; the wait on the own barrier cell brings the partner's rows that this device writes; the
  transfer sends the other half of the columns into them, paying the partner's receive cell; the local copy moves the
  own half of the columns into the own rows; the three waits bring back the copied rows, the sent columns and the
  rows the partner wrote. The block is then whole again and unchanged, and the result array, joined from the own rows,
  the partner's rows and the (empty) rest, holds `outF`.
-/
import proofs.«900633_g7700000000000634_dist_a2a_v7x_xyz2x2x4_x_m2048_n512_f32_1_alg».proof.Proof.KernelIdealProto
import proofs.«900633_g7700000000000634_dist_a2a_v7x_xyz2x2x4_x_m2048_n512_f32_1_alg».proof.Proof.KernelIdealGeom

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data: no window, one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own four, its
    partner's barrier cell (its signal) and its partner's receive cell (its transfer). -/
def invs (K : Dev nD × Fin 4 → ℕ) (c : Dev nD) : sProp 𝕄 :=
  iprop(cellInv ER (sched m) (K (c, 0)) (barCell c) ∗ cellInv ER (sched m) (K (c, 1)) (sendCell c)
    ∗ cellInv ER (sched m) (K (c, 2)) (recvCell c) ∗ cellInv ER (sched m) (K (c, 3)) (locCell c)
    ∗ cellInv ER (sched m) (K (peer c, 0)) (barCell (peer c)) ∗ cellInv ER (sched m) (K (peer c, 2)) (recvCell (peer c)))

instance invs_persistent (K : Dev nD × Fin 4 → ℕ) (c : Dev nD) : BI.Persistent (invs m K c) := by unfold invs; infer_instance

/-- The protocol's ghost state device `c` starts from: the invariants; its positions at round 0 of its four cells; the
    reached-marks of the cells it pays and of its own send, receive and local cells; the four duty tokens it pays
    with. -/
def ghost (K : Dev nD × Fin 4 → ℕ) (c : Dev nD) : sProp 𝕄 :=
  iprop(invs m K c
    ∗ atPos ER (barCell c) 0 ∅ 0 ∗ atPos ER (sendCell c) 0 ∅ 0 ∗ atPos ER (recvCell c) 0 ∅ 0 ∗ atPos ER (locCell c) 0 ∅ 0
    ∗ reached ER (barCell (peer c)) 0 ∗ reached ER (recvCell (peer c)) 0 ∗ reached ER (sendCell c) 0 ∗ reached ER (recvCell c) 0
    ∗ reached ER (locCell c) 0
    ∗ dutyTok ER (barCell (peer c)) 0 () ∗ dutyTok ER (recvCell (peer c)) 0 () ∗ dutyTok ER (sendCell c) 0 () ∗ dutyTok ER (locCell c) 0 ())

/-- What device `c`'s body starts from beside its arrays: the ghost state at some names, its two credit tokens (its barrier's
    unit, its receive cell's credit) and the level facts. -/
def start (c : Dev nD) : sProp 𝕄 :=
  iprop((∃ K, ghost m K c) ∗ cred (tallyAt (barCell c) () 1) ∗ cred (tallyAt (recvCell c) () N) ∗ levAts L lv)

/-- The block, whole, as launched; the result array, whole, at contents `f`. -/
def argPts (c : Dev nD) : sProp 𝕄 := ((c : Thread nD τ).loc main_arg0) ↦{fullShare} X m c
def outPts (c : Dev nD) (f : Buf (Elt F) ((c : Thread nD τ).loc main_v1)) : sProp 𝕄 := ((c : Thread nD τ).loc main_v1) ↦{fullShare} f

def Φ₀ (c : Dev nD) : sProp 𝕄 := iprop(start m c ∗ argPts m c ∗ outPts c (Y0 m c))
/-- After the point: the block unchanged, the result at its final contents, the three own cells at zero, closed. -/
def Φ₁ (c : Dev nD) : sProp 𝕄 :=
  iprop(argPts m c ∗ outPts c (outF m c) ∗ semVal (sendCell c) 0 ∗ semVal (recvCell c) 0 ∗ semVal (locCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## Points-to assertions cut along a subset of the elements, and rewritten where the contents agree -/

omit [FloatOps F] in
theorem pts_split {ℓ : Loc nD τ sig} (I S : Finset (Idx ℓ)) (h : I ⊆ S) (q : PosShare TreeShare) (f : Buf (Elt F) ℓ) :
    (ℓ ↦[S]{q} f : sProp 𝕄) ⊣⊢ iprop((ℓ ↦[I]{q} f) ∗ (ℓ ↦[S \ I]{q} f)) := BI.Region.is_split_subset h

omit [FloatOps F] in
theorem pts_congr {ℓ : Loc nD τ sig} (I : Finset (Idx ℓ)) (q : PosShare TreeShare) (f g : Buf (Elt F) ℓ) (h : ∀ i ∈ I, f i = g i) :
    (ℓ ↦[I]{q} f : sProp 𝕄) = (ℓ ↦[I]{q} g) := BI.Region.is_congr h

/-! ## The body -/

section Body

variable (K : Dev nD × Fin 4 → ℕ)

/-- What the transfer of `c` writes on its partner's rows is the partner's final contents there, whatever it is laid over. -/
theorem outF_from_peer (c : Dev nD) (fd : Buf (Elt F) (((peer c : Dev nD) : Thread nD τ).loc main_v1)) :
    ∀ i ∈ (dstM c).view.set,
      (dstM c).view.write (Elt F) fd ((srcRM c).view.read (Elt F) (X m c)) Finset.univ i = outF m (peer c) i := by
  have key : ∀ e : Dev nD, e = peer (peer c) → ∀ i ∈ (dstM e).view.set,
      (dstM e).view.write (Elt F) fd ((srcRM e).view.read (Elt F) (X m e)) Finset.univ i = outF m (peer c) i := by
    rintro e rfl; exact outF_on_peer m (peer c) fd
  exact key c (peer_peer c).symm

/-- The transfer at the protocol's cells, addressed to `n = peer c` (substituted, not rewritten). -/
theorem wp_send_peer (c n : Dev nD) (hn : n = peer c)
    {hsc : (dstM c : Memref sig (Dev.tc n : Thread nD τ).2.kind .hbm S2048x512 .f32).view.ref.isScScratch = false}
    {hsrc : (srcRM c : Memref sig .tc .hbm S2048x512 .f32).view.WordExact} {hdst : (dstM c : Memref sig .tc .hbm S2048x512 .f32).view.WordExact}
    {hsem : DmaTarget.Typed .hbm (.dma recvS.sem) (.remote (Dev.tc n : Thread nD τ) (dstM c : Memref sig .tc .hbm S2048x512 .f32) (.dma sendS.sem) hsc)}
    {α : Type} {Q : α → sProp 𝕄} {k : PUnit → Prog (TpuEff nD τ sig (Elt F) Λ₀ .tc) α}
    (fn : Buf (Elt F) (((peer c : Dev nD) : Thread nD τ).loc main_v1)) (W : Waits sig Unit) :
    iprop(cellInv ER (sched m) (K (c, 1)) (sendCell c) ∗ cellInv ER (sched m) (K (peer c, 2)) (recvCell (peer c))
        ∗ srcRPts m c ∗ dstPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcRM c) (.remote (Dev.tc n : Thread nD τ) (dstM c) (.dma sendS.sem) hsc) (.dma recvS.sem) hsrc hdst hsem) k) Q) := by
  subst hn
  unfold srcRPts dstPts
  exact Rounds.wp_send_pointsTo 𝒱₀ ER (sched m) (c : Thread nD τ) none (c' := (peer c : Thread nD τ)) (sp' := .hbm) (src := srcRM c) (dst := dstM c) (q := fullShare) (κ₁ := K (c, 1)) (κ₂ := K (peer c, 2))
    (r₁ := 0) (r₂ := 0) (d₁ := ()) (d₂ := ()) (fs := X m c) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by
      rw [payload_recv, congrArg (recvPay m (peer c)) (peer_peer c)]
      unfold recvPay dstPts
      exact Entails.of_eq (pts_congr (F := F) (ℓ := ((peer c : Dev nD) : Thread nD τ).loc main_v1) (dstM c).view.set fullShare _ (outF m (peer c)) (outF_from_peer m c fn)))

/-- The local copy at the protocol's local cell. -/
theorem wp_copy_own (c : Dev nD)
    {hsrc : (srcLM c : Memref sig .tc .hbm S2048x512 .f32).view.WordExact} {hdst : (dstM c : Memref sig .tc .hbm S2048x512 .f32).view.WordExact}
    {hsem : DmaTarget.Typed .hbm (.dma locS.sem) (DmaTarget.here (dstM c) : DmaTarget nD τ sig (.tc : Proc τ) .hbm S2048x512 .f32)}
    {α : Type} {Q : α → sProp 𝕄} {k : PUnit → Prog (TpuEff nD τ sig (Elt F) Λ₀ .tc) α} :
    iprop(cellInv ER (sched m) (K (c, 3)) (locCell c) ∗ srcLPts m c ∗ dstPts c c (Y0 m c)
        ∗ dutyTok ER (locCell c) 0 () ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcLM c) (.here (dstM c)) (.dma locS.sem) hsrc hdst hsem) k) Q) :=
  Rounds.wp_copy_pointsTo 𝒱₀ ER (sched m) (c : Thread nD τ) none (src := srcLM c) (dst := dstM c) (κ := K (c, 3)) (r := 0) (d := ()) (q := fullShare)
    (fs := X m c) (fd := Y0 m c)
    (by rw [duties_loc]; exact Finset.mem_singleton_self _) () N rfl (amount_loc m c ())
    (by rw [payload_loc]; unfold locPay wA; exact BI.Entails.refl _)

def bodyPre (c : Dev nD) : sProp 𝕄 :=
  iprop((ghost m K c ∗ cred (tallyAt (barCell c) () 1) ∗ cred (tallyAt (recvCell c) () N) ∗ levAts L lv ∗ argPts m c ∗ outPts c (Y0 m c))
    ∗ (dats m 0 c).owesAt () t₀.castSucc)

def bodyPost (c : Dev nD) : sProp 𝕄 := iprop(Φ₁ m c ∗ (dats m 0 c).owesAt () t₀.succ)

set_option maxHeartbeats 1600000 in
/-- The body, from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIloc, #HIbarP, #HIrcvP⟩, HatB, HatS, HatV, HatL, #HrBP, #HrVP, #HrS, #HrV, #HrL, HtBP, HtVP, HtS, HtL⟩,
    HcB, HcV, #Hlev, Harg, Hout⟩, Ho⟩, Hk⟩
  unfold Dat.owesAt Pipeline.owesWithin
  icases Ho with ⟨%W, %hW, HO⟩
  rw [show (dats m 0 c).owed t₀.castSucc = O₀ c from rfl]
  simp only [dev1_eq c, dev2_eq c]
  -- the block: the columns sent, the columns kept, the rest; the result: the partner's rows, the own rows, the rest
  unfold argPts outPts
  ihave Ha1 := ((pts_split (F := F) (ℓ := (c : Thread nD τ).loc main_arg0) (srcRM c).view.set Finset.univ (Finset.subset_univ _) fullShare (X m c)).1) $$ Harg
  icases Ha1 with ⟨HsR, Ha1⟩
  ihave Ha2 := ((pts_split (F := F) (ℓ := (c : Thread nD τ).loc main_arg0) (srcLM c).view.set (Finset.univ \ (srcRM c).view.set) (srcL_sub c) fullShare (X m c)).1) $$ Ha1
  icases Ha2 with ⟨HsL, HaRest⟩
  ihave Hb1 := ((pts_split (F := F) (ℓ := (c : Thread nD τ).loc main_v1) (dstM (peer c)).view.set Finset.univ (Finset.subset_univ _) fullShare (Y0 m c)).1) $$ Hout
  icases Hb1 with ⟨HdP, Hb1⟩
  ihave Hb2 := ((pts_split (F := F) (ℓ := (c : Thread nD τ).loc main_v1) (dstM c).view.set (Finset.univ \ (dstM (peer c)).view.set) (own_sub c) fullShare (Y0 m c)).1) $$ Hb1
  icases Hb2 with ⟨HdO, HbRest⟩
  -- the SIGNAL to the partner's barrier: the rows of this device's result that the partner writes go with it
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP HdP]
  · isplitr; · iexact HIbarP
    isplitl [HO]; · iexact HO
    isplitl [HtBP]; · iexact HtBP
    isplitl [HdP]
    · rw [payload_bar, congrArg (barPay (F := F) (peer c)) (peer_peer c)]; unfold barPay dstPts
      isplitl [HdP]; · iexists (Y0 m c); iexact HdP
      iexact HrV
    · iexact HrBP
  iintro HO
  -- the WAIT on the own barrier, owing the partner's receive credit: the partner's rows that this device writes come with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HdN⟩, #HrVP'⟩
  -- the TRANSFER to the partner
  iapply (wp_send_peer m K c _ (dev2_eq c) fn (insert (SemLoc.reg barS, ()) W)) $$ [HsR HdN HO HtS HtVP]
  · isplitr; · iexact HIsnd
    isplitr; · iexact HIrcvP
    isplitl [HsR]; · iexact HsR
    isplitl [HdN]; · iexact HdN
    isplitl [HO]; · iexact HO
    isplitl [HtS]; · iexact HtS
    isplitr; · iexact HrS
    isplitl [HtVP]; · iexact HtVP
    iexact HrVP
  iintro ⟨HcS, HO⟩
  -- the LOCAL copy of the columns kept into the own rows
  iapply (wp_copy_own m K c) $$ [HsL HdO HtL]
  · isplitr; · iexact HIloc
    isplitl [HsL]; · iexact HsL
    isplitl [HdO]; · iexact HdO
    isplitl [HtL]; · iexact HtL
    iexact HrL
  iintro HcL
  -- the wait on the LOCAL cell: the own rows, copied, and the columns kept
  iapply (Rounds.wp_wait_rest_token 𝒱₀ ER (sched m) (c : Thread nD τ) none (κ := K (c, 3))
      (wpE_waitDma2_eq 𝒱₀ (c : Thread nD τ) none Set.univ) (Set.mem_univ _) () (O := 0) (W := insert (SemLoc.reg barS, ()) W) (R := 0) (m := 0) (T := ∅)
      (by rw [Nat.zero_add, expect_loc]; rfl)) $$ [HcL HO HatL]
  · isplitr; · iexact HIloc
    isplitl [HcL]; · iexact HcL
    isplitl [HO]; · iexact HO
    isplitr; · rw [MayWait_zero]; iempintro
    iexact HatL
  iintro ⟨HO, HatL, -, Hpay⟩
  ihave HL := (Entails.of_eq (rest_loc m c)) $$ Hpay
  unfold locPay
  icases HL with ⟨HdO, HsL⟩
  -- the wait on the SEND cell: the columns sent
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma locS.sem, ()) (insert (SemLoc.reg barS, ()) W)) (R := 0) (m := 0) (T := ∅)
      (by rw [Nat.zero_add, expect_send]; rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HsR := (Entails.of_eq (rest_send m c)) $$ Hpay
  -- the wait on the RECEIVE cell: the rows the partner wrote, at the final contents
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sendS.sem, ()) (insert (SemLoc.dma locS.sem, ()) (insert (SemLoc.reg barS, ()) W))) (R := 0) (m := 0) (T := ∅)
      (by rw [Nat.zero_add, expect_recv]; rfl)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HdP := (Entails.of_eq (rest_recv m c)) $$ Hpay
  -- the three own cells close: their counters at zero are the core's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  imod (Rounds.cell_close ER (sched m) (Set.mem_univ (K (c, 3))) (fun h => h) (R := 0 + 1) (duties_later m (locCell c))) $$ [HatL] with HzL
  · isplitr; · iexact HIloc
    iexact HatL
  rw [wp_ret]; imodintro
  iapply Hk
  -- the block whole again
  unfold sendPay srcRPts srcLPts
  ihave Ha1 := ((pts_split (F := F) (ℓ := (c : Thread nD τ).loc main_arg0) (srcLM c).view.set (Finset.univ \ (srcRM c).view.set) (srcL_sub c) fullShare (X m c)).2) $$ [HsL HaRest]
  · isplitl [HsL] <;> iassumption
  ihave Harg := ((pts_split (F := F) (ℓ := (c : Thread nD τ).loc main_arg0) (srcRM c).view.set Finset.univ (Finset.subset_univ _) fullShare (X m c)).2) $$ [HsR Ha1]
  · isplitl [HsR] <;> iassumption
  -- the result whole again, at `outF` on each of its three parts
  unfold recvPay dstPts
  ihave HdO := (Entails.of_eq (pts_congr (F := F) (ℓ := (c : Thread nD τ).loc main_v1) (dstM c).view.set fullShare (wA m c) (outF m c) (outF_on_own m c))) $$ HdO
  ihave HbRest := (Entails.of_eq (pts_congr (F := F) (ℓ := (c : Thread nD τ).loc main_v1) ((Finset.univ \ (dstM (peer c)).view.set) \ (dstM c).view.set) fullShare (Y0 m c) (outF m c)
      (fun i hi => outF_off m c i (Finset.mem_sdiff.mp hi).2 (Finset.mem_sdiff.mp (Finset.mem_sdiff.mp hi).1).2))) $$ HbRest
  ihave Hb1 := ((pts_split (F := F) (ℓ := (c : Thread nD τ).loc main_v1) (dstM c).view.set (Finset.univ \ (dstM (peer c)).view.set) (own_sub c) fullShare (outF m c)).2) $$ [HdO HbRest]
  · isplitl [HdO] <;> iassumption
  ihave Hout := ((pts_split (F := F) (ℓ := (c : Thread nD τ).loc main_v1) (dstM (peer c)).view.set Finset.univ (Finset.subset_univ _) fullShare (outF m c)).2) $$ [HdP Hb1]
  · isplitl [HdP] <;> iassumption
  unfold bodyPost Φ₁ argPts outPts Dat.owesAt Pipeline.owesWithin
  rw [show (dats m 0 c).owed t₀.succ = 0 from rfl]
  isplitr [HO]
  · isplitl [Harg]; · iexact Harg
    isplitl [Hout]; · iexact Hout
    isplitl [HzS]; · iexact HzS
    isplitl [HzV]; · iexact HzV
    iexact HzL
  · iexists (insert (SemLoc.dma recvS.sem, ()) (insert (SemLoc.dma sendS.sem, ()) (insert (SemLoc.dma locS.sem, ()) (insert (SemLoc.reg barS, ()) W))))
    isplitr; · ipureintro; exact fun _ _ => Or.inl trivial
    iexact HO

/-- The library's body obligation on core `c`. -/
theorem body_obligation (c : Dev nD) : BodyObligation (dats (F := F) m 0 c) (defs₀ (F := F)) 𝒱₀ () Set.univ := fun t => by
  rw [fin_N t]
  show iprop(Φ₀ m c ∗ (dats m 0 c).owesAt () t₀.castSucc ∗ emp)
    ⊢ wp frame (wpE (defs₀ (F := F)) 𝒱₀ c none) Set.univ
      (cc0_body (Memref.whole main_arg0) (Memref.isWhole_whole _) (Memref.whole main_v1) (Memref.isWhole_whole _)
        cc0_scratch0 cc0_scratch1 cc0_scratch2) (fun _ => iprop(Φ₁ m c ∗ (dats m 0 c).owesAt () t₀.succ ∗ emp))
  unfold Φ₀ start
  iintro ⟨⟨⟨⟨%K, Hg⟩, Hrest⟩, Harg, Hout⟩, Ho, -⟩
  iapply (sound_body m K c fun _ => iprop(Φ₁ m c ∗ (dats m 0 c).owesAt () t₀.succ ∗ emp))
  unfold bodyPre bodyPost
  isplitr []
  · isplitl [Hg Hrest Harg Hout]
    · isplitl [Hg]; · iexact Hg
      icases Hrest with ⟨H1, H2, H3⟩
      isplitl [H1]; · iexact H1
      isplitl [H2]; · iexact H2
      isplitl [H3]; · iexact H3
      isplitl [Harg] <;> iassumption
    iexact Ho
  · iintro ⟨H1, H2⟩
    isplitl [H1]; · iexact H1
    isplitl [H2]; · iexact H2
    iempintro

end Body

end Cert.KernelIdealProof

end
-- ==== Proof.KernelIdealLaunch.lean ====
/-
  The launch: every device's body lemma becomes the run of the whole mesh.

  The protocol's ghost state is minted once for all sixteen devices (four cells a device, one duty a cell); the
  cells' invariants are allocated under one update over every device's own semaphores and its barrier semaphore,
  both at zero; the duty tokens are dealt to the devices that pay them (the barrier's and the receive cell's to the
  partner); the launch credit of a device is one unit on its barrier cell and one transfer's credit on its receive
  cell, both owed by its partner. The argument block and the result array are not staged: they travel as the
  unscoped rest into the first invariant and out of the last, where they are read against the final memory.
-/
import proofs.«900633_g7700000000000634_dist_a2a_v7x_xyz2x2x4_x_m2048_n512_f32_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := w.elim0

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- Every cell's one duty token as minted. -/
abbrev tokOf (cj : Dev nD × Fin 4) : GSem nD τ sig × ℕ × Unit := (kcell cj, 0, ())
theorem tokOf_injective : Function.Injective (tokOf : Dev nD × Fin 4 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 () ∗ dutyTok ER (locCell c) 0 ())

/-- What the launch element deals device `c`. -/
def G (c : Dev nD) : sProp 𝕄 :=
  iprop((bigSep Finset.univ fun k : Fin 4 => roundState ER (sched m) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 4 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin4]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send, receive and local semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (locCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HL⟩, HB⟩
  isplitl [HB]; · iexact HB
  isplitl [HS]; · iexact HS
  isplitl [HV] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 () ∗ dutyTok ER (locCell c) 0 ())
def linear (c : Dev nD) : sProp 𝕄 :=
  iprop((atPos ER (barCell c) 0 ∅ 0 ∗ atPos ER (sendCell c) 0 ∅ 0 ∗ atPos ER (recvCell c) 0 ∅ 0 ∗ atPos ER (locCell c) 0 ∅ 0) ∗ payToks c)

omit [FloatOps F] in
theorem ghost_intro (K : Dev nD × Fin 4 → ℕ) (c : Dev nD) : iprop(records m K ∗ linear c) ⊢ G' m c := by
  unfold records linear payToks G' ghost invs
  iintro ⟨⟨#HI, #HR⟩, ⟨HaB, HaS, HaV, HaL⟩, HtBP, HtVP, HtS, HtL⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitl [HaL]; · iexact HaL
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitr; · iapply (reached_at (F := F) (c, 3)); iexact HR
  isplitl [HtBP]; · iexact HtBP
  isplitl [HtVP]; · iexact HtVP
  isplitl [HtS]; · iexact HtS
  iexact HtL

/-- Exchanging partners is a bijection of the devices. -/
def pe : Dev nD ≃ Dev nD := ⟨peer, peer, peer_peer, peer_peer⟩

omit [FloatOps F] in
/-- The tokens dealt: a barrier's token and a receive cell's token go to the partner, which pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pe (fun c : Dev nD => (dutyTok ER (barCell c) 0 () : sProp 𝕄)),
    bigSep_univ_equiv pe (fun c : Dev nD => (dutyTok ER (recvCell c) 0 () : sProp 𝕄))]
  iintro ⟨H1, H2, H3, H4⟩
  isplitl [H1]; · iexact H1
  isplitl [H3]; · iexact H3
  isplitl [H2]; · iexact H2
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

/-- What device `c` routes into the first invariant: the protocol's start and its two arrays as launched. -/
def Xc (c : Dev nD) : sProp 𝕄 := iprop(start m c ∗ argPts m c ∗ outPts c (Y0 m c))
/-- What comes out of the last: the block unchanged and the result at its final contents. -/
def Yc (c : Dev nD) : sProp 𝕄 := iprop(argPts m c ∗ outPts c (outF m c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Xc m c ∗ emp) := by
  rw [Pipeline.unscopedRestP_none, unscopedRest0_eq]
  iintro ⟨⟨Ha, Hv⟩, Hlev, Hcr, -, HG⟩
  ihave Hc := (creds (F := F) c) $$ Hcr
  icases Hc with ⟨H1, HN⟩
  imodintro
  unfold Xc start G' argPts outPts X Y0
  isplitl
  · isplitl [HG H1 HN Hlev]
    · isplitl [HG]; · iexact HG
      isplitl [H1]; · iexact H1
      isplitl [HN]; · iexact HN
      iexact Hlev
    isplitl [Ha]; · iexact Ha
    iexact Hv
  · iempintro

theorem phi0_intro (c : Dev nD) :
    iprop(Xc m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ Xc
  iintro ⟨Hs, -, -⟩
  iexact Hs

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ Yc
  iintro ⟨Ha, Hv, HzS, HzV, HzL⟩
  isplitl [Ha Hv]
  · isplitl [Ha] <;> iassumption
  isplitl [HzS HzV HzL]
  · isplitl [HzS]; · iexact HzS
    isplitl [HzV] <;> iassumption
  iempintro

theorem waits (c : Dev nD) : (levAts L lv : sProp 𝕄) ⊢ Pipeline.cellsWaits cfgs (dats m) () 0 c :=
  Pipeline.cellsWaits_intro cfgs (dats m) () 0 c fun w s t => w.elim0

/-! ### The run -/

def QC : PUnit × MemSt nD τ sig (Elt F) → Prop := fun r =>
  ∀ c : Dev nD, r.2.mem ((c : Thread nD τ).loc main_v1) = outF m c
    ∧ r.2.mem ((c : Thread nD τ).loc main_arg0) = m ((c : Thread nD τ).loc main_arg0)

set_option maxRecDepth 8000 in
/-- At the compiled mesh of sixteen devices, for any float values, from any memory with zero counters: every weakly fair
    execution of @main terminates, and every final state has each device's result array at `outF` and its block
    unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ w => w.elim0) (hpf := fun _ k => k.elim0)
    (X := Xc m) (Y := Yc m) (Z := fun _ => iprop(emp))
    (hX := start_intro m ρ) (hin := phi0_intro m) (hout := phi1_exit m)
    (QY := fun c s => s.mem ((c : Thread nD τ).loc main_v1) = outF m c ∧ s.mem ((c : Thread nD τ).loc main_arg0) = X m c)
    (hY := fun c s' => by
      unfold Yc argPts outPts
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

/-- info: 'Cert.KernelIdealProof.run_main' depends on axioms: [propext, Classical.choice, Quot.sound] -/
#guard_msgs in #print axioms run_main

end Cert.KernelIdealProof

end
-- ==== Proof.KernelIdealValue.lean ====
/-
  The value of the all-to-all at the ideal instance, and the reference's run.

  Write `W` for the reference's whole array of 4096 rows and 1024 columns and `a = c / 8` for device `c`'s first
  mesh coordinate. Device `c` is launched holding rows [2048 a, 2048 a + 2048) of `W`, and is to end holding
  columns [512 a, 512 a + 512) of `W`. Its result array is written twice: rows [2048 a, +2048) by its own copy,
  from columns [512 a, +512) of its block, and rows [2048 (1 - a), +2048) by its partner's transfer, from columns
  [512 - 512 (1 - a), +512) = [512 a, +512) of the partner's block, which is rows [2048 (1 - a), +2048) of `W`.
  The two row ranges partition the 4096 rows, so at every index (r, l) the result holds `W (r, 512 a + l)`.

  The reference returns its argument: its run is the run of an empty line of operations, which leaves every
  buffer of the TensorCore as launched.
-/
import proofs.«900633_g7700000000000634_dist_a2a_v7x_xyz2x2x4_x_m2048_n512_f32_1_alg».proof.Defs
import proofs.«900633_g7700000000000634_dist_a2a_v7x_xyz2x2x4_x_m2048_n512_f32_1_alg».proof.Proof.KernelIdealSpec
import proofs.«900633_g7700000000000634_dist_a2a_v7x_xyz2x2x4_x_m2048_n512_f32_1_alg».proof.Proof.Gen.ReferenceIdeal
import Idealize.ShloMosaic.Lib.StableHlo.Run
import Idealize.ShloMosaic.Lib.Layout
import Idealize.ShloMosaic.Lib.Pipeline.Value
import Idealize.ShloMosaic.Signature.View
import Idealize.ShloMosaic.Signature.Memref
import Idealize.ShloMosaic.Shape

noncomputable section

namespace Cert.KernelIdealValue

open Idealize.ShloMosaic Idealize.ShloMosaic.TcCoe Idealize.SL.Sem Idealize.ShloMosaic.StableHlo
open Cert.KernelIdealProof

/-! ## Arithmetic of the mesh, over the 16 devices -/

/-- The block a device holds along a dimension cut by the first mesh axis is its first coordinate. -/
theorem lin0 (c : Dev Cert.KernelIdeal.nD) : Layout.meshLin [2, 2, 4] c.val [0] = c.val / 8 := by revert c; decide
/-- The partner's first coordinate is the other one. -/
theorem peer_div (c : Dev Cert.KernelIdeal.nD) : (peer c).val / 8 = 1 - c.val / 8 := by revert c; decide
/-- The first coordinate is 0 or 1. -/
theorem div_le (c : Dev Cert.KernelIdeal.nD) : c.val / 8 ≤ 1 := by revert c; decide

/-- The rows device `d` writes, in its own result and in its partner's: an index of the result array lies under
    them exactly when its row is in [2048 (d / 8), 2048 (d / 8) + 2048) (its column is any of the 512). -/
theorem mem_dst (d : Dev Cert.KernelIdeal.nD) (i : Cert.KernelIdeal.S4096x512.Idx) :
    i ∈ (dstM d).view.set ↔ 2048 * (d.val / 8) ≤ (i 0).val ∧ (i 0).val < 2048 * (d.val / 8) + 2048 := by
  have h1 : (i 1).val < 512 := (i 1).isLt
  rw [show (dstM d).view.set = _ from View.set_slice_whole Cert.KernelIdeal.main_v1 _, Rect.mem_set_unit]
  show (∀ a : Fin 2, _) ↔ _
  rw [Fin.forall_fin_two, Cert.KernelIdeal.Gen.k0_off1_eq]
  show (2048 * (d.val / 8) ≤ (i 0).val ∧ (i 0).val < 2048 * (d.val / 8) + 2048) ∧ (0 ≤ (i 1).val ∧ (i 1).val < 0 + 512) ↔ _
  omega

/-! ## The value -/

/-- If every device is launched holding its block of rows of the whole array `W`, the result array of device `c`
    ends as its block of columns of `W`. At an index whose row is among the partner's rows the last write (the
    partner's transfer) decides, and it carries `W` at that row of the partner's block and at column
    512 - 512 (1 - a) + l = 512 a + l; at any other index the row is among `c`'s own rows, the partner's write
    leaves it, and the own copy carries `W` at that row of `c`'s block and at column 512 a + l. -/
theorem outF_eq_block (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hagree : ∀ c : Dev Cert.KernelIdeal.nD, m ((c.tc : Thread Cert.KernelIdeal.nD Cert.KernelIdeal.τ).loc Cert.KernelIdeal.main_arg0) = Layout.blockN ⟨2, ![2048, 1024]⟩ ⟨2, ![4096, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) (c : Dev Cert.KernelIdeal.nD) : Cert.KernelIdealProof.outF m c = Layout.blockN ⟨2, ![4096, 512]⟩ ⟨2, ![4096, 1024]⟩ (Layout.meshBlock [2, 2, 4] ![[], [0]] c) (m' (((0 : Dev Cert.ReferenceIdeal.nD).tc : Thread Cert.ReferenceIdeal.nD Cert.ReferenceIdeal.τ).loc Cert.ReferenceIdeal.main_arg0)) := by
  funext i
  rw [Layout.blockN_apply]
  have hp := peer_div c
  have hc := div_le c
  by_cases hi : i ∈ (dstM (peer c)).view.set
  · obtain ⟨y, rfl⟩ := View.exists_emb_of_mem_set _ hi
    unfold outF
    rw [View.write_emb_of_mem _ _ (Finset.mem_univ y), View.read_apply]
    unfold X
    rw [hagree (peer c), Layout.blockN_apply, cast_cast, cast_eq]
    refine congrArg _ (funext ?_)
    show ∀ a : Fin 2, _ = _
    rw [Fin.forall_fin_two]
    constructor
    · apply Fin.ext
      show Layout.meshLin [2, 2, 4] (peer c).val [0] * 2048 + (Cert.KernelIdeal.k0_off2 (peer c) 0 + 1 * (y 0).val)
        = Layout.meshLin [2, 2, 4] c.val [] * 4096 + (Cert.KernelIdeal.k0_off1 (peer c) 0 + 1 * (y 0).val)
      rw [Cert.KernelIdeal.Gen.k0_off2_eq, Cert.KernelIdeal.Gen.k0_off1_eq, lin0, hp]
      show (1 - c.val / 8) * 2048 + (0 + 1 * (y 0).val) = 0 * 4096 + (2048 * (1 - c.val / 8) + 1 * (y 0).val)
      omega
    · apply Fin.ext
      show Layout.meshLin [2, 2, 4] (peer c).val [] * 1024 + (Cert.KernelIdeal.k0_off2 (peer c) 1 + 1 * (y 1).val)
        = Layout.meshLin [2, 2, 4] c.val [0] * 512 + (Cert.KernelIdeal.k0_off1 (peer c) 1 + 1 * (y 1).val)
      rw [Cert.KernelIdeal.Gen.k0_off2_eq, Cert.KernelIdeal.Gen.k0_off1_eq, lin0, hp]
      show 0 * 1024 + (512 - 512 * (1 - c.val / 8) + 1 * (y 1).val) = c.val / 8 * 512 + (0 + 1 * (y 1).val)
      omega
  · have h0 : (i 0).val < 4096 := (i 0).isLt
    have hn := mt (mem_dst (peer c) i).mpr hi
    have hi' : i ∈ (dstM c).view.set := (mem_dst c i).mpr (by rw [hp] at hn; omega)
    obtain ⟨y, rfl⟩ := View.exists_emb_of_mem_set _ hi'
    unfold outF
    rw [View.write_of_not_mem _ _ _ hi]
    unfold wA
    rw [View.write_emb_of_mem _ _ (Finset.mem_univ y), View.read_apply]
    unfold X
    rw [hagree c, Layout.blockN_apply, cast_cast, cast_eq]
    refine congrArg _ (funext ?_)
    show ∀ a : Fin 2, _ = _
    rw [Fin.forall_fin_two]
    constructor
    · apply Fin.ext
      show Layout.meshLin [2, 2, 4] c.val [0] * 2048 + (Cert.KernelIdeal.k0_off3 c 0 + 1 * (y 0).val)
        = Layout.meshLin [2, 2, 4] c.val [] * 4096 + (Cert.KernelIdeal.k0_off1 c 0 + 1 * (y 0).val)
      rw [Cert.KernelIdeal.Gen.k0_off3_eq, Cert.KernelIdeal.Gen.k0_off1_eq, lin0]
      show c.val / 8 * 2048 + (0 + 1 * (y 0).val) = 0 * 4096 + (2048 * (c.val / 8) + 1 * (y 0).val)
      omega
    · apply Fin.ext
      show Layout.meshLin [2, 2, 4] c.val [] * 1024 + (Cert.KernelIdeal.k0_off3 c 1 + 1 * (y 1).val)
        = Layout.meshLin [2, 2, 4] c.val [0] * 512 + (Cert.KernelIdeal.k0_off1 c 1 + 1 * (y 1).val)
      rw [Cert.KernelIdeal.Gen.k0_off3_eq, Cert.KernelIdeal.Gen.k0_off1_eq, lin0]
      show 0 * 1024 + (512 * (c.val / 8) + 1 * (y 1).val) = c.val / 8 * 512 + (0 + 1 * (y 1).val)
      omega

/-! ## The reference's run -/

theorem ref_scopedRefs_eq : (Finset.univ.filter fun b : Ref Cert.ReferenceIdeal.sig .tc => b.isScoped) = ∅ := by decide
theorem ref_scopedSems_eq : (Finset.univ.filter fun sm : SemLoc Cert.ReferenceIdeal.sig => sm.isScoped .tc) = ∅ := by decide

/-- The reference is the empty line of operations: every weakly fair execution terminates with every buffer of the
    TensorCore as launched. -/
theorem ref_run_all (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩
      (fun r => ∀ (d : Dev Cert.ReferenceIdeal.nD) (b : Ref Cert.ReferenceIdeal.sig .tc),
        r.2.mem ((d.tc : Thread Cert.ReferenceIdeal.nD Cert.ReferenceIdeal.τ).loc b)
          = m' ((d.tc : Thread Cert.ReferenceIdeal.nD Cert.ReferenceIdeal.τ).loc b)) :=
  (θ_run _ _ _).mono (fun _ h d b => (h d b).trans rfl)
    (run_seq ref_scopedRefs_eq ref_scopedSems_eq (Cert.ReferenceIdeal.defs (F := Ideal)) (Cert.ReferenceIdeal.main (F := Ideal))
      (fun _ => []) (fun _ => rfl) (fun _ => trivial) m' g')

/-- In particular its argument, which is its result, ends as launched. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩
      (fun r => r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run _ _ _).mono (fun _ h => h 0 Cert.ReferenceIdeal.main_arg0) (ref_run_all m' g')

end Cert.KernelIdealValue

end
-- ==== Proof.lean ====
/-
  An all-to-all on a mesh of 2 × 2 × 4 devices against the identity on the whole array.

  The whole argument is a 4096 × 1024 array cut into two blocks of 2048 rows along the first mesh axis; the whole
  result is the same array, cut into two blocks of 512 columns along that axis. Device `c`, with first coordinate
  `a = c / 8`, must therefore end holding columns [512 a, 512 a + 512) of ALL 4096 rows: the rows [2048 a, 2048 a + 2048)
  it has itself, and the other 2048 rows are held by the device whose first coordinate is `1 - a` (same second and third
  coordinates). The kernel copies its own half locally and each device sends the partner's half of its columns into
  the partner's result, after a handshake on the barrier semaphore that tells each of the two that the other has
  entered the kernel.

  The run of all sixteen devices (`run_main`, at any float instance) ends with every result array at `outF` and every
  argument block unchanged; the three frames are that run with the values dropped (the reference does nothing, so its
  run is immediate); no operation was rewritten by the idealization, so `preserves` is trivial; and at the ideal
  instance `outF` on device `c` is block `c` of the whole argument, index by index (`outF_eq_block`).
-/
import proofs.«900633_g7700000000000634_dist_a2a_v7x_xyz2x2x4_x_m2048_n512_f32_1_alg».proof.Defs
import proofs.«900633_g7700000000000634_dist_a2a_v7x_xyz2x2x4_x_m2048_n512_f32_1_alg».proof.Proof.Gen.Kernel
import proofs.«900633_g7700000000000634_dist_a2a_v7x_xyz2x2x4_x_m2048_n512_f32_1_alg».proof.Proof.Gen.KernelIdeal
import proofs.«900633_g7700000000000634_dist_a2a_v7x_xyz2x2x4_x_m2048_n512_f32_1_alg».proof.Proof.Gen.ReferenceIdeal
import proofs.«900633_g7700000000000634_dist_a2a_v7x_xyz2x2x4_x_m2048_n512_f32_1_alg».proof.Proof.Gen.Pre_finite_inputs_Kernel
import proofs.«900633_g7700000000000634_dist_a2a_v7x_xyz2x2x4_x_m2048_n512_f32_1_alg».proof.Proof.Gen.Pre_finite_inputs_ReferenceIdeal
import proofs.«900633_g7700000000000634_dist_a2a_v7x_xyz2x2x4_x_m2048_n512_f32_1_alg».proof.Proof.KernelLaunch
import proofs.«900633_g7700000000000634_dist_a2a_v7x_xyz2x2x4_x_m2048_n512_f32_1_alg».proof.Proof.KernelIdealLaunch
import proofs.«900633_g7700000000000634_dist_a2a_v7x_xyz2x2x4_x_m2048_n512_f32_1_alg».proof.Proof.KernelIdealValue
import Idealize.ShloMosaic.Adequacy
import Idealize.ShloMosaic.Init

noncomputable section

namespace Cert.Proof

open Idealize.ShloMosaic Idealize.SL.Sem

/-- The word-level kernel runs and leaves its argument blocks unchanged. -/
theorem frame_k : Cert.frame_Kernel (hKernel := Cert.Kernel.Gen.facts) (hPre_finite_inputs_Kernel := Cert.Pre_finite_inputs_Kernel.Gen.facts) :=
  fun m ρ _ => (θ_run _ _ _).mono (fun _ h c => (h c).2) (Cert.KernelProof.run_main (F := Bits) m ρ)

/-- The idealized kernel runs and leaves its argument blocks unchanged. -/
theorem frame_ki : Cert.frame_KernelIdeal (hKernelIdeal := Cert.KernelIdeal.Gen.facts) (hPre_finite_inputs_Kernel := Cert.Pre_finite_inputs_Kernel.Gen.facts) :=
  fun m ρ _ => (θ_run _ _ _).mono (fun _ h c => (h c).2) (Cert.KernelIdealProof.run_main (F := Ideal) m ρ)

/-- The reference does nothing: it ends at once, its array as launched. -/
theorem frame_ri : Cert.frame_ReferenceIdeal (hReferenceIdeal := Cert.ReferenceIdeal.Gen.facts) (hPre_finite_inputs_ReferenceIdeal := Cert.Pre_finite_inputs_ReferenceIdeal.Gen.facts) :=
  fun m' ρ' _ => (θ_run _ _ _).mono (fun _ h c => h c Cert.ReferenceIdeal.main_arg0) (Cert.KernelIdealValue.ref_run_all m' ρ')

/-- Each device's result is its block of columns of the whole argument, which is what the reference returns. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  fun m ρ m' ρ' _ hagree =>
    ⟨m' (((0 : Dev Cert.ReferenceIdeal.nD).tc : Thread Cert.ReferenceIdeal.nD Cert.ReferenceIdeal.τ).loc Cert.ReferenceIdeal.main_arg0),
      (θ_run _ _ _).mono (fun _ h c => ⟨(h c).1.trans (Cert.KernelIdealValue.outF_eq_block m m' hagree c), (h c).2⟩)
        (Cert.KernelIdealProof.run_main (F := Ideal) m ρ),
      (θ_run _ _ _).mono (fun _ h => ⟨h 0 Cert.ReferenceIdeal.main_arg0, h 0 Cert.ReferenceIdeal.main_arg0⟩)
        (Cert.KernelIdealValue.ref_run_all m' ρ')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
